-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S1000 : Shape := ⟨1, ![1000]⟩
abbrev S100 : Shape := ⟨1, ![100]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S65536x1000 .f32) (main_arg1 : IVec S65536 32) (main_arg2 : FVec F S1000 .f32) (main_arg3 : IVec S100 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S1000 .f32 := Host.absf main_arg2
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  main_v8
-- ==== Kernel.lean ====
abbrev S65536x1000 : Shape := ⟨2, ![65536, 1000]⟩
abbrev S65536 : Shape := ⟨1, ![65536]⟩
abbrev S1000 : Shape := ⟨1, ![1000]⟩
abbrev S100 : Shape := ⟨1, ![100]⟩
abbrev S_ : Shape := ⟨0, ![]⟩
abbrev S65536x1 : Shape := ⟨2, ![65536, 1]⟩
abbrev S65536x2 : Shape := ⟨2, ![65536, 2]⟩
abbrev S2x8x128 : Shape := ⟨3, ![2, 8, 128]⟩
abbrev S1024x1000 : Shape := ⟨2, ![1024, 1000]⟩
abbrev S1024x1 : Shape := ⟨2, ![1024, 1]⟩
abbrev S1024x2 : Shape := ⟨2, ![1024, 2]⟩
abbrev S1x8x128 : Shape := ⟨3, ![1, 8, 128]⟩
abbrev S8x128 : Shape := ⟨2, ![8, 128]⟩
abbrev S1024 : Shape := ⟨1, ![1024]⟩
abbrev S1x1 : Shape := ⟨2, ![1, 1]⟩
abbrev S1 : Shape := ⟨1, ![1]⟩
abbrev S2x1x1 : Shape := ⟨3, ![2, 1, 1]⟩
abbrev S2 : Shape := ⟨1, ![2]⟩

abbrev nBuf : Space → Nat
  | .hbm => 53
  | .vmem => 15
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S1000, .f32⟩
  | .hbm, ⟨3, _⟩ => ⟨S100, .i32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S65536, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S_, .i32⟩
  | .hbm, ⟨17, _⟩ => ⟨S65536, .i32⟩
  | .hbm, ⟨18, _⟩ => ⟨S65536, .i1⟩
  | .hbm, ⟨19, _⟩ => ⟨S_, .i32⟩
  | .hbm, ⟨20, _⟩ => ⟨S65536, .i32⟩
  | .hbm, ⟨21, _⟩ => ⟨S65536, .i32⟩
  | .hbm, ⟨22, _⟩ => ⟨S65536, .i32⟩
  | .hbm, ⟨23, _⟩ => ⟨S65536x1, .i32⟩
  | .hbm, ⟨24, _⟩ => ⟨S65536, .f32⟩
  | .hbm, ⟨25, _⟩ => ⟨S65536, .f32⟩
  | .hbm, ⟨26, _⟩ => ⟨S65536x1, .i32⟩
  | .hbm, ⟨27, _⟩ => ⟨S65536x1, .f32⟩
  | .hbm, ⟨28, _⟩ => ⟨S65536x1, .f32⟩
  | .hbm, ⟨29, _⟩ => ⟨S65536x2, .f32⟩
  | .hbm, ⟨30, _⟩ => ⟨S2x8x128, .f32⟩
  | .hbm, ⟨31, _⟩ => ⟨S2x8x128, .f32⟩
  | .hbm, ⟨32, _⟩ => ⟨S2x8x128, .f32⟩
  | .hbm, ⟨33, _⟩ => ⟨S2x1x1, .f32⟩
  | .hbm, ⟨34, _⟩ => ⟨S2, .f32⟩
  | .hbm, ⟨35, _⟩ => ⟨S_, .f32⟩
  | .hbm, ⟨36, _⟩ => ⟨S_, .f32⟩
  | .hbm, ⟨37, _⟩ => ⟨S2x1x1, .f32⟩
  | .hbm, ⟨38, _⟩ => ⟨S2, .f32⟩
  | .hbm, ⟨39, _⟩ => ⟨S_, .f32⟩
  | .hbm, ⟨40, _⟩ => ⟨S_, .f32⟩
  | .hbm, ⟨41, _⟩ => ⟨S2x1x1, .f32⟩
  | .hbm, ⟨42, _⟩ => ⟨S2, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1, .i32⟩
  | .local _ .vmem, ⟨3, _⟩ => ⟨S1024x1, .i32⟩
  | .local _ .vmem, ⟨4, _⟩ => ⟨S1024x2, .f32⟩
  | .local _ .vmem, ⟨5, _⟩ => ⟨S1024x2, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v60 : BitVec 1 := Scalar.cmpi .eq arg1 c31_i32
  let v61 : BitVec 32 := Scalar.extui v60
  let c0_i32_27 : BitVec 32 := 0#32
  let v62 : BitVec 1 := Scalar.cmpi .ne v61 c0_i32_27
  v62

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  shapeCasts_S65536_S65536x1 : S65536.ShapeCasts S65536x1
  concatenates_S65536x1_S65536x1_S65536x2_d1 : Shape.Concatenates [S65536x1, S65536x1] S65536x2 1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  slices_S1024x2_o0_0_S1024x1 : S1024x2.Slices ![0, 0] S1024x1
  slices_S1024x2_o0_1_S1024x1 : S1024x2.Slices ![0, 1] S1024x1
  inb_S8x128_S1x1_0_0 : ∀ a, (![0, 0] : Fin 2 → Nat) a + S1x1.size a ≤ S8x128.size a
  h_S1x1 : 0 < S1x1.numel
  reduces_S1024x1_S1 : S1024x1.Reduces [0] S1
  shapeCasts_S1_S1x1 : S1.ShapeCasts S1x1
  shapeCasts_S1x1_S1x1 : S1x1.ShapeCasts S1x1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  shapeCasts_S_S1 : S_.ShapeCasts S1
  gather_S1000_S65536x1_S65536_n_0_n_n_0_1_1_wf : GatherDims.WF S1000 S65536x1 S65536 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S65536x1000.size a
  hwx0_0 : ∀ i : grid0.Coords, EltTy.bits .f32 = 32 ∨ (Rect.block (s := S65536x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2.size a ≤ S65536x2.size a
  hwx0_2 : ∀ i : grid0.Coords, EltTy.bits .f32 = 32 ∨ (Rect.block (s := S65536x2) S1024x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

def gather_S1000_S65536x1_S65536_n_0_n_n_0_1_1 : GatherDims S1000 S65536x1 S65536 where
  offsetDims := []
  collapsedSliceDims := [0]
  operandBatchingDims := []
  startIndicesBatchingDims := []
  startIndexMap := [0]
  indexVectorDim := 1
  sliceSizes := ![1]
  wf := gather_S1000_S65536x1_S65536_n_0_n_n_0_1_1_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_2) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S65536x1000 : Shape := ⟨2, ![65536, 1000]⟩
abbrev S65536 : Shape := ⟨1, ![65536]⟩
abbrev S1000 : Shape := ⟨1, ![1000]⟩
abbrev S100 : Shape := ⟨1, ![100]⟩
abbrev S_ : Shape := ⟨0, ![]⟩
abbrev S65536x1 : Shape := ⟨2, ![65536, 1]⟩
abbrev S65536x2 : Shape := ⟨2, ![65536, 2]⟩
abbrev S1 : Shape := ⟨1, ![1]⟩

abbrev nBuf : Space → Nat
  | .hbm => 125
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S1000, .f32⟩
  | .hbm, ⟨3, _⟩ => ⟨S100, .i32⟩
  | .hbm, ⟨4, _⟩ => ⟨S_, .i32⟩
  | .hbm, ⟨5, _⟩ => ⟨S65536, .i32⟩
  | .hbm, ⟨6, _⟩ => ⟨S65536, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S_, .f32⟩
  | .hbm, ⟨17, _⟩ => ⟨S65536, .f32⟩
  | .hbm, ⟨18, _⟩ => ⟨S_, .f32⟩
  | .hbm, ⟨19, _⟩ => ⟨S65536, .f32⟩
  | .hbm, ⟨20, _⟩ => ⟨S65536, .f32⟩
  | .hbm, ⟨21, _⟩ => ⟨S65536x1, .f32⟩
  | .hbm, ⟨22, _⟩ => ⟨S65536x1000, .f32⟩
  | .hbm, ⟨23, _⟩ => ⟨S65536x1000, .f32⟩
  | .hbm, ⟨24, _⟩ => ⟨S65536x1000, .f32⟩
  | .hbm, ⟨25, _⟩ => ⟨S_, .f32⟩
  | .hbm, ⟨26, _⟩ => ⟨S65536, .f32⟩
  | .hbm, ⟨27, _⟩ => ⟨S65536x1, .f32⟩
  | .hbm, ⟨28, _⟩ => ⟨S65536x1000, .f32⟩
  | .hbm, ⟨29, _⟩ => ⟨S65536x1000, .f32⟩
  | .hbm, ⟨30, _⟩ => ⟨S_, .i32⟩
  | .hbm, ⟨31, _⟩ => ⟨S65536, .i32⟩
  | .hbm, ⟨32, _⟩ => ⟨S65536, .i1⟩
  | .hbm, ⟨33, _⟩ => ⟨S_, .i32⟩
  | .hbm, ⟨34, _⟩ => ⟨S65536, .i32⟩
  | .hbm, ⟨35, _⟩ => ⟨S65536, .i32⟩
  | .hbm, ⟨36, _⟩ => ⟨S65536, .i32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S65536x1, .i32⟩
  | .hbm, ⟨45, _⟩ => ⟨S65536x1, .i32⟩
  | .hbm, ⟨46, _⟩ => ⟨S65536x2, .i32⟩
  | .hbm, ⟨47, _⟩ => ⟨S65536, .f32⟩
  | .hbm, ⟨48, _⟩ => ⟨S_, .f32⟩
  | .hbm, ⟨49, _⟩ => ⟨S65536, .f32⟩
  | .hbm, ⟨50, _⟩ => ⟨S65536, .f32⟩
  | .hbm, ⟨51, _⟩ => ⟨S_, .f32⟩
  | .hbm, ⟨52, _⟩ => ⟨S65536, .f32⟩
  | .hbm, ⟨53, _⟩ => ⟨S65536, .f32⟩
  | .hbm, ⟨54, _⟩ => ⟨S65536, .f32⟩
  | .hbm, ⟨55, _⟩ => ⟨S65536, .f32⟩
  | .hbm, ⟨56, _⟩ => ⟨S_, .i32⟩
  | .hbm, ⟨57, _⟩ => ⟨S65536, .i32⟩
  | .hbm, ⟨58, _⟩ => ⟨S65536, .i1⟩
  | .hbm, ⟨59, _⟩ => ⟨S_, .i32⟩
  | .hbm, ⟨60, _⟩ => ⟨S65536, .i32⟩
  | .hbm, ⟨61, _⟩ => ⟨S65536, .i32⟩
  | .hbm, ⟨62, _⟩ => ⟨S65536, .i32⟩
  | .hbm, ⟨63, _⟩ => ⟨S65536x1, .i32⟩
  | .hbm, ⟨64, _⟩ => ⟨S65536, .f32⟩
  | .hbm, ⟨65, _⟩ => ⟨S65536, .f32⟩
  | .hbm, ⟨66, _⟩ => ⟨S_, .f32⟩
  | .hbm, ⟨67, _⟩ => ⟨S_, .f32⟩
  | .hbm, ⟨68, _⟩ => ⟨S65536, .f32⟩
  | .hbm, ⟨69, _⟩ => ⟨S65536, .f32⟩
  | .hbm, ⟨70, _⟩ => ⟨S_, .f32⟩
  | .hbm, ⟨71, _⟩ => ⟨S_, .f32⟩
  | .hbm, ⟨72, _⟩ => ⟨S65536, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S1, .f32⟩
  | .hbm, ⟨83, _⟩ => ⟨S_, .f32⟩
  | .hbm, ⟨84, _⟩ => ⟨S65536, .f32⟩
  | .hbm, ⟨85, _⟩ => ⟨S_, .f32⟩
  | .hbm, ⟨86, _⟩ => ⟨S65536, .f32⟩
  | .hbm, ⟨87, _⟩ => ⟨S65536, .f32⟩
  | .hbm, ⟨88, _⟩ => ⟨S65536x1, .f32⟩
  | .hbm, ⟨89, _⟩ => ⟨S65536x1000, .f32⟩
  | .hbm, ⟨90, _⟩ => ⟨S65536x1000, .f32⟩
  | .hbm, ⟨91, _⟩ => ⟨S65536x1000, .f32⟩
  | .hbm, ⟨92, _⟩ => ⟨S_, .f32⟩
  | .hbm, ⟨93, _⟩ => ⟨S65536, .f32⟩
  | .hbm, ⟨94, _⟩ => ⟨S65536x1, .f32⟩
  | .hbm, ⟨95, _⟩ => ⟨S65536x1, .f32⟩
  | .hbm, ⟨96, _⟩ => ⟨S65536x1000, .f32⟩
  | .hbm, ⟨97, _⟩ => ⟨S65536x1000, .f32⟩
  | .hbm, ⟨98, _⟩ => ⟨S_, .i32⟩
  | .hbm, ⟨99, _⟩ => ⟨S65536, .i32⟩
  | .hbm, ⟨100, _⟩ => ⟨S65536, .i1⟩
  | .hbm, ⟨101, _⟩ => ⟨S_, .i32⟩
  | .hbm, ⟨102, _⟩ => ⟨S65536, .i32⟩
  | .hbm, ⟨103, _⟩ => ⟨S65536, .i32⟩
  | .hbm, ⟨104, _⟩ => ⟨S65536, .i32⟩
  | .hbm, ⟨105, _⟩ => ⟨S_, .i32⟩
  | .hbm, ⟨106, _⟩ => ⟨S65536, .i32⟩
  | .hbm, ⟨107, _⟩ => ⟨S65536, .i1⟩
  | .hbm, ⟨108, _⟩ => ⟨S_, .i32⟩
  | .hbm, ⟨109, _⟩ => ⟨S65536, .i32⟩
  | .hbm, ⟨110, _⟩ => ⟨S65536, .i32⟩
  | .hbm, ⟨111, _⟩ => ⟨S65536, .i32⟩
  | .hbm, ⟨112, _⟩ => ⟨S65536x1, .i32⟩
  | .hbm, ⟨113, _⟩ => ⟨S65536x1, .i32⟩
  | .hbm, ⟨114, _⟩ => ⟨S65536x2, .i32⟩
  | .hbm, ⟨115, _⟩ => ⟨S65536, .f32⟩
  | .hbm, ⟨116, _⟩ => ⟨S65536, .f32⟩
  | .hbm, ⟨117, _⟩ => ⟨S_, .f32⟩
  | .hbm, ⟨118, _⟩ => ⟨S_, .f32⟩
  | .hbm, ⟨119, _⟩ => ⟨S65536, .f32⟩
  | .hbm, ⟨120, _⟩ => ⟨S65536, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_c_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_10 : Ref sig .tc := ⟨.hbm, 56, rfl⟩
abbrev main_v35 : Ref sig .tc := ⟨.hbm, 57, rfl⟩
abbrev main_v36 : Ref sig .tc := ⟨.hbm, 58, rfl⟩
abbrev main_c_11 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_call1_v0 : Ref sig .tc := ⟨.hbm, 67, rfl⟩
abbrev main_call1_v1 : Ref sig .tc := ⟨.hbm, 68, rfl⟩
abbrev main_v43 : Ref sig .tc := ⟨.hbm, 69, rfl⟩
abbrev main_cst_13 : Ref sig .tc := ⟨.hbm, 70, rfl⟩
abbrev main_v44 : Ref sig .tc := ⟨.hbm, 71, rfl⟩
abbrev main_v45 : Ref sig .tc := ⟨.hbm, 72, rfl⟩
abbrev main_c_14 : Ref sig .tc := ⟨.hbm, 73, rfl⟩
abbrev main_v46 : Ref sig .tc := ⟨.hbm, 74, rfl⟩
abbrev main_c_15 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_16 : Ref sig .tc := ⟨.hbm, 80, rfl⟩
abbrev main_v51 : Ref sig .tc := ⟨.hbm, 81, rfl⟩
abbrev main_v52 : Ref sig .tc := ⟨.hbm, 82, rfl⟩
abbrev main_call2_cst : Ref sig .tc := ⟨.hbm, 83, rfl⟩
abbrev main_call2_v0 : Ref sig .tc := ⟨.hbm, 84, rfl⟩
abbrev main_call2_cst_0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_cst_1 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_v53 : Ref sig .tc := ⟨.hbm, 97, rfl⟩
abbrev main_c_17 : Ref sig .tc := ⟨.hbm, 98, rfl⟩
abbrev main_v54 : Ref sig .tc := ⟨.hbm, 99, rfl⟩
abbrev main_v55 : Ref sig .tc := ⟨.hbm, 100, rfl⟩
abbrev main_c_18 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c_19 : Ref sig .tc := ⟨.hbm, 105, rfl⟩
abbrev main_v59 : Ref sig .tc := ⟨.hbm, 106, rfl⟩
abbrev main_v60 : Ref sig .tc := ⟨.hbm, 107, rfl⟩
abbrev main_c_20 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_21 : Ref sig .tc := ⟨.hbm, 117, rfl⟩
abbrev main_call3_v0 : Ref sig .tc := ⟨.hbm, 118, rfl⟩
abbrev main_call3_v1 : Ref sig .tc := ⟨.hbm, 119, rfl⟩
abbrev main_v69 : Ref sig .tc := ⟨.hbm, 120, rfl⟩
abbrev main_cst_22 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  reducesTo_S65536x1000_S65536_d1 : S65536x1000.ReducesTo [1] S65536
  h_S_ : 0 < S_.numel
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  concatenates_S65536x1_S65536x1_S65536x2_d1 : Shape.Concatenates [S65536x1, S65536x1] S65536x2 1
  reducesTo_S65536_S_d0 : S65536.ReducesTo [0] S_
  natLt_1_32 : 1 < 32
  shapeCasts_S_S1 : S_.ShapeCasts S1
  gather_S65536x1000_S65536x2_S65536_n_01_n_n_01_1_11_wf : GatherDims.WF S65536x1000 S65536x2 S65536 [] [0, 1] [] [0, 1] [] 1 ![1, 1]
  gather_S1000_S65536x1_S65536_n_0_n_n_0_1_1_wf : GatherDims.WF S1000 S65536x1 S65536 [] [0] [] [0] [] 1 ![1]

variable [Facts₀]

def gather_S65536x1000_S65536x2_S65536_n_01_n_n_01_1_11 : GatherDims S65536x1000 S65536x2 S65536 where
  offsetDims := []
  collapsedSliceDims := [0, 1]
  operandBatchingDims := []
  startIndicesBatchingDims := []
  startIndexMap := [0, 1]
  indexVectorDim := 1
  sliceSizes := ![1, 1]
  wf := gather_S65536x1000_S65536x2_S65536_n_01_n_n_01_1_11_wf
def gather_S1000_S65536x1_S65536_n_0_n_n_0_1_1 : GatherDims S1000 S65536x1 S65536 where
  offsetDims := []
  collapsedSliceDims := [0]
  operandBatchingDims := []
  startIndicesBatchingDims := []
  startIndexMap := [0]
  indexVectorDim := 1
  sliceSizes := ![1]
  wf := gather_S1000_S65536x1_S65536_n_0_n_n_0_1_1_wf

class Facts : Prop extends Facts₀ where

variable [Facts]
-- ==== Proof.KPieces.lean ====
/-
  What one grid point leaves at entry (0, 0) of each of the three accumulators, and of the three output blocks at a
  core's last point.

  The body adds, to entry (0, 0) of each accumulator, the sum over the block's 1024 rows of one column of per-row terms
  (the weighted `-log (1 - p + 0.01)` terms, the masked cross entropies, the 0/1 positive flags).  At a core's first
  point the accumulator was just reset to zero, so the entry is the column's sum alone; elsewhere it is what the point
  before left there plus that sum; and at a core's last point the output block is a copy of the accumulator after the
  update, so its entry (0, 0, 0) is the same number.
-/
import proofs.«409709_j23218593202209_2_alg».proof.Proof.Gen.KernelIdeal.Frame
import Idealize.ShloMosaic.Lib.ValueIdx
import Idealize.ShloMosaic.Lib.WritesUnit
import Idealize.ShloMosaic.Lib.Pipeline.Value
import Idealize.ShloMosaic.PureOps.Ideal.Laws

noncomputable section

namespace Cert.KernelIdeal.KValue

open Idealize.ShloMosaic Idealize.ShloMosaic.TcCoe Idealize.SL.Sem Idealize.ShloMosaic.ValueIdx
open Cert.KernelIdeal Cert.KernelIdeal.Gen

/-- The block's column of weighted `-log (1 - p + 0.01)` terms, summed over its 1024 rows. -/
abbrev colPu (x0 : Vec Ideal S1024x1000 .f32) (x1 : Vec Ideal S1024x1 .i32) (x2 : Vec Ideal S1024x2 .f32) : EReal :=
  ∑ r : Fin 1024, k0_pay15 (F := Ideal) x0 x1 x2 (ix2 r (0 : Fin 1))
/-- The block's column of masked cross entropies, summed over its rows. -/
abbrev colCe (x0 : Vec Ideal S1024x1000 .f32) (x1 : Vec Ideal S1024x1 .i32) (x2 : Vec Ideal S1024x2 .f32) : EReal :=
  ∑ r : Fin 1024, k0_pay16 (F := Ideal) x0 x1 x2 (ix2 r (0 : Fin 1))
/-- The block's column of positive flags, summed over its rows. -/
abbrev colPos (x2 : Vec Ideal S1024x2 .f32) : EReal :=
  ∑ r : Fin 1024, k0_pay14 (F := Ideal) x2 (ix2 r (0 : Fin 1))

/-! ### The pieces' arithmetic at one entry -/

/-- Zero offsets, however spelt. -/
theorem hz2 : (![0, 0] : Fin 2 → Nat) = fun _ => 0 := funext fun a => by fin_cases a <;> rfl

/-- The 1×1 value stored into the first accumulator: what was loaded from its entry (0, 0), plus the sum over the 1024 rows of
    the column (the reduction starts from its neutral element, so it is the bare sum; the casts between [1] and
    [1, 1] keep the one element). -/
theorem pay1_apply (v : FVec Ideal S1024x1 .f32) (w : Vec Ideal S1x1 .f32) :
    k0_pay1 (F := Ideal) v w (ix2 (0 : Fin 1) (0 : Fin 1)) = w (ix2 (0 : Fin 1) (0 : Fin 1)) + ∑ r : Fin 1024, v (ix2 r (0 : Fin 1)) := by
  unfold k0_pay1
  rw [shapeCast_self]
  refine (addf_apply _ _ _).trans ?_
  congr 1
  refine (shapeCast_apply _ _ _ (ix1 (0 : Fin 1)) rfl).trans ?_
  refine (Ideal.multiReduction_add_single _ _ _ _ _ _).trans ?_
  exact Finset.sum_congr rfl fun k _ => congrArg v (funext fun a => Fin.ext (match a with | ⟨0, _⟩ => rfl | ⟨1, _⟩ => rfl))

/-- The 1×1 value stored into the second accumulator: what was loaded from its entry (0, 0), plus the sum over the 1024 rows of
    the column (the reduction starts from its neutral element, so it is the bare sum; the casts between [1] and
    [1, 1] keep the one element). -/
theorem pay2_apply (v : FVec Ideal S1024x1 .f32) (w : Vec Ideal S1x1 .f32) :
    k0_pay2 (F := Ideal) v w (ix2 (0 : Fin 1) (0 : Fin 1)) = w (ix2 (0 : Fin 1) (0 : Fin 1)) + ∑ r : Fin 1024, v (ix2 r (0 : Fin 1)) := by
  unfold k0_pay2
  rw [shapeCast_self]
  refine (addf_apply _ _ _).trans ?_
  congr 1
  refine (shapeCast_apply _ _ _ (ix1 (0 : Fin 1)) rfl).trans ?_
  refine (Ideal.multiReduction_add_single _ _ _ _ _ _).trans ?_
  exact Finset.sum_congr rfl fun k _ => congrArg v (funext fun a => Fin.ext (match a with | ⟨0, _⟩ => rfl | ⟨1, _⟩ => rfl))

/-- The 1×1 value stored into the third accumulator: what was loaded from its entry (0, 0), plus the sum over the 1024 rows of
    the column (the reduction starts from its neutral element, so it is the bare sum; the casts between [1] and
    [1, 1] keep the one element). -/
theorem pay3_apply (v : FVec Ideal S1024x1 .f32) (w : Vec Ideal S1x1 .f32) :
    k0_pay3 (F := Ideal) v w (ix2 (0 : Fin 1) (0 : Fin 1)) = w (ix2 (0 : Fin 1) (0 : Fin 1)) + ∑ r : Fin 1024, v (ix2 r (0 : Fin 1)) := by
  unfold k0_pay3
  rw [shapeCast_self]
  refine (addf_apply _ _ _).trans ?_
  congr 1
  refine (shapeCast_apply _ _ _ (ix1 (0 : Fin 1)) rfl).trans ?_
  refine (Ideal.multiReduction_add_single _ _ _ _ _ _).trans ?_
  exact Finset.sum_congr rfl fun k _ => congrArg v (funext fun a => Fin.ext (match a with | ⟨0, _⟩ => rfl | ⟨1, _⟩ => rfl))

/-- A load of the 1×1 corner of an 8×128 block reads the block's entry (0, 0). -/
theorem ld_corner {Val : EltTy → Type} {e : EltTy} (X : S8x128.Idx → Val e) :
    View.ld X (Rect.unit (s := S8x128) ![0, 0] ![1, 1] inb_S8x128_S1x1_0_0) (ix2 (0 : Fin 1) (0 : Fin 1)) = X (ix2 (0 : Fin 8) (0 : Fin 128)) :=
  congrArg X (funext fun a => Fin.ext (match a with | ⟨0, _⟩ => rfl | ⟨1, _⟩ => rfl))

/-- The zero blocks a core's first point stores read zero everywhere. -/
theorem pay7_zero (y : S8x128.Idx) : k0_pay7 (F := Ideal) y = (0 : EReal) := by
  unfold k0_pay7; rw [shapeCast_self]; exact Ideal.ofBits_zero_f32
theorem pay8_zero (y : S8x128.Idx) : k0_pay8 (F := Ideal) y = (0 : EReal) := by
  unfold k0_pay8; rw [shapeCast_self]; exact Ideal.ofBits_zero_f32
theorem pay9_zero (y : S8x128.Idx) : k0_pay9 (F := Ideal) y = (0 : EReal) := by
  unfold k0_pay9; rw [shapeCast_self]; exact Ideal.ofBits_zero_f32

/-- A load of the 1×1 corner after ONE store of a whole zero block reads zero. -/
theorem readCov_zero_corner {sig' : RefSig} {κ : Kind} {sp : Space} (v : View sig' κ sp S8x128 .f32)
    (w : S8x128.Idx → Elt Ideal .f32) (hw : ∀ y, w y = (0 : EReal)) :
    v.readCov [(⟨Rect.unit (s := S8x128) ![0, 0] S8x128.size inb_S8x128_S8x128_0_0, w⟩ : View.Piece (Elt Ideal) S8x128 .f32)]
      (Rect.unit (s := S8x128) ![0, 0] S1x1.size inb_S8x128_S1x1_0_0).toLoadRect (ix2 (0 : Fin 1) (0 : Fin 1)) = (0 : EReal) := by
  rw [View.readCov_eq_canon', View.canon_unit_zero hz2]; exact hw _

/-- The output block's copy of an accumulator reads, at (0, 0, 0), the accumulator's entry (0, 0). -/
theorem pay4_apply (v : Vec Ideal S8x128 .f32) :
    k0_pay4 (F := Ideal) v (ix3 (0 : Fin 1) (0 : Fin 8) (0 : Fin 128)) = v (ix2 (0 : Fin 8) (0 : Fin 128)) := by
  unfold k0_pay4; exact shapeCast_apply _ _ _ (ix2 (0 : Fin 8) (0 : Fin 128)) rfl
theorem pay5_apply (v : Vec Ideal S8x128 .f32) :
    k0_pay5 (F := Ideal) v (ix3 (0 : Fin 1) (0 : Fin 8) (0 : Fin 128)) = v (ix2 (0 : Fin 8) (0 : Fin 128)) := by
  unfold k0_pay5; exact shapeCast_apply _ _ _ (ix2 (0 : Fin 8) (0 : Fin 128)) rfl
theorem pay6_apply (v : Vec Ideal S8x128 .f32) :
    k0_pay6 (F := Ideal) v (ix3 (0 : Fin 1) (0 : Fin 8) (0 : Fin 128)) = v (ix2 (0 : Fin 8) (0 : Fin 128)) := by
  unfold k0_pay6; exact shapeCast_apply _ _ _ (ix2 (0 : Fin 8) (0 : Fin 128)) rfl

/-! ### A core's first point: the accumulators were reset -/

theorem first_0 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : cond0_0 i) (hc1 : ¬cond0_1 i) (x0 : Vec Ideal S1024x1000 .f32) (x1 : Vec Ideal S1024x1 .i32) (x2 : Vec Ideal S1024x2 .f32) :
    sout0_A_0 (F := Ideal) c i arg2 harg2 arg3 harg3 arg4 harg4 arg5 harg5 arg6 harg6 arg7 harg7 arg8 harg8 arg9 harg9 arg10 harg10 hc0 hc1 x0 x1 x2 (ix2 (0 : Fin 8) (0 : Fin 128)) = colPu x0 x1 x2 := by
  unfold sout0_A_0
  unfold kernelRun0_A
  dsimp only
  sl_unfold_words
  refine (View.read_writes_cons_unit_of_mem _ _ inb_S8x128_S1x1_0_0 _ _ (ix2 (0 : Fin 8) (0 : Fin 128)) (ix2 (0 : Fin 1) (0 : Fin 1)) rfl (fun a => match a with | ⟨0, _⟩ => rfl | ⟨1, _⟩ => rfl)).trans ?_
  refine (pay1_apply _ _).trans ?_
  rw [readCov_zero_corner _ _ pay7_zero, zero_add]
  simp only [View.readAt_eq_ld, harg2.read_unread, harg3.read_unread, harg4.read_unread, View.ld_unit_zero (S := S1024x1000) hz2, View.ld_unit_zero (S := S1024x1) hz2, View.ld_unit_zero (S := S1024x2) hz2]

theorem first_1 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : cond0_0 i) (hc1 : ¬cond0_1 i) (x0 : Vec Ideal S1024x1000 .f32) (x1 : Vec Ideal S1024x1 .i32) (x2 : Vec Ideal S1024x2 .f32) :
    sout0_A_1 (F := Ideal) c i arg2 harg2 arg3 harg3 arg4 harg4 arg5 harg5 arg6 harg6 arg7 harg7 arg8 harg8 arg9 harg9 arg10 harg10 hc0 hc1 x0 x1 x2 (ix2 (0 : Fin 8) (0 : Fin 128)) = colCe x0 x1 x2 := by
  unfold sout0_A_1
  unfold kernelRun0_A
  dsimp only
  sl_unfold_words
  refine (View.read_writes_cons_unit_of_mem _ _ inb_S8x128_S1x1_0_0 _ _ (ix2 (0 : Fin 8) (0 : Fin 128)) (ix2 (0 : Fin 1) (0 : Fin 1)) rfl (fun a => match a with | ⟨0, _⟩ => rfl | ⟨1, _⟩ => rfl)).trans ?_
  refine (pay2_apply _ _).trans ?_
  rw [readCov_zero_corner _ _ pay8_zero, zero_add]
  simp only [View.readAt_eq_ld, harg2.read_unread, harg3.read_unread, harg4.read_unread, View.ld_unit_zero (S := S1024x1000) hz2, View.ld_unit_zero (S := S1024x1) hz2, View.ld_unit_zero (S := S1024x2) hz2]

theorem first_2 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : cond0_0 i) (hc1 : ¬cond0_1 i) (x0 : Vec Ideal S1024x1000 .f32) (x1 : Vec Ideal S1024x1 .i32) (x2 : Vec Ideal S1024x2 .f32) :
    sout0_A_2 (F := Ideal) c i arg2 harg2 arg3 harg3 arg4 harg4 arg5 harg5 arg6 harg6 arg7 harg7 arg8 harg8 arg9 harg9 arg10 harg10 hc0 hc1 x0 x1 x2 (ix2 (0 : Fin 8) (0 : Fin 128)) = colPos x2 := by
  unfold sout0_A_2
  unfold kernelRun0_A
  dsimp only
  sl_unfold_words
  refine (View.read_writes_cons_unit_of_mem _ _ inb_S8x128_S1x1_0_0 _ _ (ix2 (0 : Fin 8) (0 : Fin 128)) (ix2 (0 : Fin 1) (0 : Fin 1)) rfl (fun a => match a with | ⟨0, _⟩ => rfl | ⟨1, _⟩ => rfl)).trans ?_
  refine (pay3_apply _ _).trans ?_
  rw [readCov_zero_corner _ _ pay9_zero, zero_add]
  simp only [View.readAt_eq_ld, harg2.read_unread, harg3.read_unread, harg4.read_unread, View.ld_unit_zero (S := S1024x1000) hz2, View.ld_unit_zero (S := S1024x1) hz2, View.ld_unit_zero (S := S1024x2) hz2]

/-! ### A point in a core's middle: the entry grows by the column's sum -/

theorem middle_0 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : ¬cond0_1 i) (x0 : Vec Ideal S1024x1000 .f32) (x1 : Vec Ideal S1024x1 .i32) (x2 : Vec Ideal S1024x2 .f32) (xs0 xs1 xs2 : Vec Ideal S8x128 .f32) :
    sout0_B_0 (F := Ideal) c i arg2 harg2 arg3 harg3 arg4 harg4 arg5 harg5 arg6 harg6 arg7 harg7 arg8 harg8 arg9 harg9 arg10 harg10 hc0 hc1 x0 x1 x2 xs0 xs1 xs2 (ix2 (0 : Fin 8) (0 : Fin 128))
      = xs0 (ix2 (0 : Fin 8) (0 : Fin 128)) + colPu x0 x1 x2 := by
  unfold sout0_B_0
  unfold kernelRun0_B
  dsimp only
  sl_unfold_words
  refine (View.read_writes_cons_unit_of_mem _ _ inb_S8x128_S1x1_0_0 _ [] (ix2 (0 : Fin 8) (0 : Fin 128)) (ix2 (0 : Fin 1) (0 : Fin 1)) rfl (fun a => match a with | ⟨0, _⟩ => rfl | ⟨1, _⟩ => rfl)).trans ?_
  refine (pay1_apply _ _).trans ?_
  simp only [View.readAt_eq_ld, harg2.read_unread, harg3.read_unread, harg4.read_unread, harg8.read_unread, View.ld_unit_zero (S := S1024x1000) hz2, View.ld_unit_zero (S := S1024x1) hz2, View.ld_unit_zero (S := S1024x2) hz2]
  exact congrArg (· + _) (ld_corner xs0)

theorem middle_1 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : ¬cond0_1 i) (x0 : Vec Ideal S1024x1000 .f32) (x1 : Vec Ideal S1024x1 .i32) (x2 : Vec Ideal S1024x2 .f32) (xs0 xs1 xs2 : Vec Ideal S8x128 .f32) :
    sout0_B_1 (F := Ideal) c i arg2 harg2 arg3 harg3 arg4 harg4 arg5 harg5 arg6 harg6 arg7 harg7 arg8 harg8 arg9 harg9 arg10 harg10 hc0 hc1 x0 x1 x2 xs0 xs1 xs2 (ix2 (0 : Fin 8) (0 : Fin 128))
      = xs1 (ix2 (0 : Fin 8) (0 : Fin 128)) + colCe x0 x1 x2 := by
  unfold sout0_B_1
  unfold kernelRun0_B
  dsimp only
  sl_unfold_words
  refine (View.read_writes_cons_unit_of_mem _ _ inb_S8x128_S1x1_0_0 _ [] (ix2 (0 : Fin 8) (0 : Fin 128)) (ix2 (0 : Fin 1) (0 : Fin 1)) rfl (fun a => match a with | ⟨0, _⟩ => rfl | ⟨1, _⟩ => rfl)).trans ?_
  refine (pay2_apply _ _).trans ?_
  simp only [View.readAt_eq_ld, harg2.read_unread, harg3.read_unread, harg4.read_unread, harg9.read_unread, View.ld_unit_zero (S := S1024x1000) hz2, View.ld_unit_zero (S := S1024x1) hz2, View.ld_unit_zero (S := S1024x2) hz2]
  exact congrArg (· + _) (ld_corner xs1)

theorem middle_2 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : ¬cond0_1 i) (x0 : Vec Ideal S1024x1000 .f32) (x1 : Vec Ideal S1024x1 .i32) (x2 : Vec Ideal S1024x2 .f32) (xs0 xs1 xs2 : Vec Ideal S8x128 .f32) :
    sout0_B_2 (F := Ideal) c i arg2 harg2 arg3 harg3 arg4 harg4 arg5 harg5 arg6 harg6 arg7 harg7 arg8 harg8 arg9 harg9 arg10 harg10 hc0 hc1 x0 x1 x2 xs0 xs1 xs2 (ix2 (0 : Fin 8) (0 : Fin 128))
      = xs2 (ix2 (0 : Fin 8) (0 : Fin 128)) + colPos x2 := by
  unfold sout0_B_2
  unfold kernelRun0_B
  dsimp only
  sl_unfold_words
  refine (View.read_writes_cons_unit_of_mem _ _ inb_S8x128_S1x1_0_0 _ [] (ix2 (0 : Fin 8) (0 : Fin 128)) (ix2 (0 : Fin 1) (0 : Fin 1)) rfl (fun a => match a with | ⟨0, _⟩ => rfl | ⟨1, _⟩ => rfl)).trans ?_
  refine (pay3_apply _ _).trans ?_
  simp only [View.readAt_eq_ld, harg2.read_unread, harg3.read_unread, harg4.read_unread, harg10.read_unread, View.ld_unit_zero (S := S1024x1000) hz2, View.ld_unit_zero (S := S1024x1) hz2, View.ld_unit_zero (S := S1024x2) hz2]
  exact congrArg (· + _) (ld_corner xs2)

/-! ### A core's last point: the same update, and the output block copies the accumulator -/

theorem last_0 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : cond0_1 i) (x0 : Vec Ideal S1024x1000 .f32) (x1 : Vec Ideal S1024x1 .i32) (x2 : Vec Ideal S1024x2 .f32) (xs0 xs1 xs2 : Vec Ideal S8x128 .f32) :
    sout0_C_0 (F := Ideal) c i arg2 harg2 arg3 harg3 arg4 harg4 arg5 harg5 arg6 harg6 arg7 harg7 arg8 harg8 arg9 harg9 arg10 harg10 hc0 hc1 x0 x1 x2 xs0 xs1 xs2 (ix2 (0 : Fin 8) (0 : Fin 128))
      = xs0 (ix2 (0 : Fin 8) (0 : Fin 128)) + colPu x0 x1 x2 := by
  unfold sout0_C_0
  unfold kernelRun0_C
  dsimp only
  sl_unfold_words
  refine (View.read_writes_cons_unit_of_mem _ _ inb_S8x128_S1x1_0_0 _ [] (ix2 (0 : Fin 8) (0 : Fin 128)) (ix2 (0 : Fin 1) (0 : Fin 1)) rfl (fun a => match a with | ⟨0, _⟩ => rfl | ⟨1, _⟩ => rfl)).trans ?_
  refine (pay1_apply _ _).trans ?_
  simp only [View.readAt_eq_ld, harg2.read_unread, harg3.read_unread, harg4.read_unread, harg8.read_unread, View.ld_unit_zero (S := S1024x1000) hz2, View.ld_unit_zero (S := S1024x1) hz2, View.ld_unit_zero (S := S1024x2) hz2]
  exact congrArg (· + _) (ld_corner xs0)

theorem last_1 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : cond0_1 i) (x0 : Vec Ideal S1024x1000 .f32) (x1 : Vec Ideal S1024x1 .i32) (x2 : Vec Ideal S1024x2 .f32) (xs0 xs1 xs2 : Vec Ideal S8x128 .f32) :
    sout0_C_1 (F := Ideal) c i arg2 harg2 arg3 harg3 arg4 harg4 arg5 harg5 arg6 harg6 arg7 harg7 arg8 harg8 arg9 harg9 arg10 harg10 hc0 hc1 x0 x1 x2 xs0 xs1 xs2 (ix2 (0 : Fin 8) (0 : Fin 128))
      = xs1 (ix2 (0 : Fin 8) (0 : Fin 128)) + colCe x0 x1 x2 := by
  unfold sout0_C_1
  unfold kernelRun0_C
  dsimp only
  sl_unfold_words
  refine (View.read_writes_cons_unit_of_mem _ _ inb_S8x128_S1x1_0_0 _ [] (ix2 (0 : Fin 8) (0 : Fin 128)) (ix2 (0 : Fin 1) (0 : Fin 1)) rfl (fun a => match a with | ⟨0, _⟩ => rfl | ⟨1, _⟩ => rfl)).trans ?_
  refine (pay2_apply _ _).trans ?_
  simp only [View.readAt_eq_ld, harg2.read_unread, harg3.read_unread, harg4.read_unread, harg9.read_unread, View.ld_unit_zero (S := S1024x1000) hz2, View.ld_unit_zero (S := S1024x1) hz2, View.ld_unit_zero (S := S1024x2) hz2]
  exact congrArg (· + _) (ld_corner xs1)

theorem last_2 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : cond0_1 i) (x0 : Vec Ideal S1024x1000 .f32) (x1 : Vec Ideal S1024x1 .i32) (x2 : Vec Ideal S1024x2 .f32) (xs0 xs1 xs2 : Vec Ideal S8x128 .f32) :
    sout0_C_2 (F := Ideal) c i arg2 harg2 arg3 harg3 arg4 harg4 arg5 harg5 arg6 harg6 arg7 harg7 arg8 harg8 arg9 harg9 arg10 harg10 hc0 hc1 x0 x1 x2 xs0 xs1 xs2 (ix2 (0 : Fin 8) (0 : Fin 128))
      = xs2 (ix2 (0 : Fin 8) (0 : Fin 128)) + colPos x2 := by
  unfold sout0_C_2
  unfold kernelRun0_C
  dsimp only
  sl_unfold_words
  refine (View.read_writes_cons_unit_of_mem _ _ inb_S8x128_S1x1_0_0 _ [] (ix2 (0 : Fin 8) (0 : Fin 128)) (ix2 (0 : Fin 1) (0 : Fin 1)) rfl (fun a => match a with | ⟨0, _⟩ => rfl | ⟨1, _⟩ => rfl)).trans ?_
  refine (pay3_apply _ _).trans ?_
  simp only [View.readAt_eq_ld, harg2.read_unread, harg3.read_unread, harg4.read_unread, harg10.read_unread, View.ld_unit_zero (S := S1024x1000) hz2, View.ld_unit_zero (S := S1024x1) hz2, View.ld_unit_zero (S := S1024x2) hz2]
  exact congrArg (· + _) (ld_corner xs2)

theorem lastOut_0 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : cond0_1 i) (x0 : Vec Ideal S1024x1000 .f32) (x1 : Vec Ideal S1024x1 .i32) (x2 : Vec Ideal S1024x2 .f32) (xs0 xs1 xs2 : Vec Ideal S8x128 .f32) :
    out0_C_3 (F := Ideal) c i arg2 harg2 arg3 harg3 arg4 harg4 arg5 harg5 arg6 harg6 arg7 harg7 arg8 harg8 arg9 harg9 arg10 harg10 hc0 hc1 x0 x1 x2 xs0 xs1 xs2 (ix3 (0 : Fin 1) (0 : Fin 8) (0 : Fin 128))
      = xs0 (ix2 (0 : Fin 8) (0 : Fin 128)) + colPu x0 x1 x2 := by
  unfold out0_C_3
  unfold kernelRun0_C
  dsimp only
  sl_unfold_words
  refine (View.read_writes_cons_unit_of_mem _ _ inb_S1x8x128_S1x8x128_0_0_0 _ [] (ix3 (0 : Fin 1) (0 : Fin 8) (0 : Fin 128)) (ix3 (0 : Fin 1) (0 : Fin 8) (0 : Fin 128)) rfl (fun a => match a with | ⟨0, _⟩ => rfl | ⟨1, _⟩ => rfl | ⟨2, _⟩ => rfl)).trans ?_
  refine (pay4_apply _).trans ?_
  rw [View.readAt_eq_ld, View.ld_unit_zero (S := S8x128) hz2]
  refine (View.read_writes_cons_unit_of_mem _ _ inb_S8x128_S1x1_0_0 _ [] (ix2 (0 : Fin 8) (0 : Fin 128)) (ix2 (0 : Fin 1) (0 : Fin 1)) rfl (fun a => match a with | ⟨0, _⟩ => rfl | ⟨1, _⟩ => rfl)).trans ?_
  refine (pay1_apply _ _).trans ?_
  simp only [View.readAt_eq_ld, harg2.read_unread, harg3.read_unread, harg4.read_unread, harg8.read_unread, View.ld_unit_zero (S := S1024x1000) hz2, View.ld_unit_zero (S := S1024x1) hz2, View.ld_unit_zero (S := S1024x2) hz2]
  exact congrArg (· + _) (ld_corner xs0)

theorem lastOut_1 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : cond0_1 i) (x0 : Vec Ideal S1024x1000 .f32) (x1 : Vec Ideal S1024x1 .i32) (x2 : Vec Ideal S1024x2 .f32) (xs0 xs1 xs2 : Vec Ideal S8x128 .f32) :
    out0_C_4 (F := Ideal) c i arg2 harg2 arg3 harg3 arg4 harg4 arg5 harg5 arg6 harg6 arg7 harg7 arg8 harg8 arg9 harg9 arg10 harg10 hc0 hc1 x0 x1 x2 xs0 xs1 xs2 (ix3 (0 : Fin 1) (0 : Fin 8) (0 : Fin 128))
      = xs1 (ix2 (0 : Fin 8) (0 : Fin 128)) + colCe x0 x1 x2 := by
  unfold out0_C_4
  unfold kernelRun0_C
  dsimp only
  sl_unfold_words
  refine (View.read_writes_cons_unit_of_mem _ _ inb_S1x8x128_S1x8x128_0_0_0 _ [] (ix3 (0 : Fin 1) (0 : Fin 8) (0 : Fin 128)) (ix3 (0 : Fin 1) (0 : Fin 8) (0 : Fin 128)) rfl (fun a => match a with | ⟨0, _⟩ => rfl | ⟨1, _⟩ => rfl | ⟨2, _⟩ => rfl)).trans ?_
  refine (pay5_apply _).trans ?_
  rw [View.readAt_eq_ld, View.ld_unit_zero (S := S8x128) hz2]
  refine (View.read_writes_cons_unit_of_mem _ _ inb_S8x128_S1x1_0_0 _ [] (ix2 (0 : Fin 8) (0 : Fin 128)) (ix2 (0 : Fin 1) (0 : Fin 1)) rfl (fun a => match a with | ⟨0, _⟩ => rfl | ⟨1, _⟩ => rfl)).trans ?_
  refine (pay2_apply _ _).trans ?_
  simp only [View.readAt_eq_ld, harg2.read_unread, harg3.read_unread, harg4.read_unread, harg9.read_unread, View.ld_unit_zero (S := S1024x1000) hz2, View.ld_unit_zero (S := S1024x1) hz2, View.ld_unit_zero (S := S1024x2) hz2]
  exact congrArg (· + _) (ld_corner xs1)

theorem lastOut_2 (c : Dev nD) (i : grid0.Coords) (arg2 : Memref sig .tc .vmem S1024x1000 .f32) (harg2 : arg2.IsWhole) (arg3 : Memref sig .tc .vmem S1024x1 .i32) (harg3 : arg3.IsWhole) (arg4 : Memref sig .tc .vmem S1024x2 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (hc0 : ¬cond0_0 i) (hc1 : cond0_1 i) (x0 : Vec Ideal S1024x1000 .f32) (x1 : Vec Ideal S1024x1 .i32) (x2 : Vec Ideal S1024x2 .f32) (xs0 xs1 xs2 : Vec Ideal S8x128 .f32) :
    out0_C_5 (F := Ideal) c i arg2 harg2 arg3 harg3 arg4 harg4 arg5 harg5 arg6 harg6 arg7 harg7 arg8 harg8 arg9 harg9 arg10 harg10 hc0 hc1 x0 x1 x2 xs0 xs1 xs2 (ix3 (0 : Fin 1) (0 : Fin 8) (0 : Fin 128))
      = xs2 (ix2 (0 : Fin 8) (0 : Fin 128)) + colPos x2 := by
  unfold out0_C_5
  unfold kernelRun0_C
  dsimp only
  sl_unfold_words
  refine (View.read_writes_cons_unit_of_mem _ _ inb_S1x8x128_S1x8x128_0_0_0 _ [] (ix3 (0 : Fin 1) (0 : Fin 8) (0 : Fin 128)) (ix3 (0 : Fin 1) (0 : Fin 8) (0 : Fin 128)) rfl (fun a => match a with | ⟨0, _⟩ => rfl | ⟨1, _⟩ => rfl | ⟨2, _⟩ => rfl)).trans ?_
  refine (pay6_apply _).trans ?_
  rw [View.readAt_eq_ld, View.ld_unit_zero (S := S8x128) hz2]
  refine (View.read_writes_cons_unit_of_mem _ _ inb_S8x128_S1x1_0_0 _ [] (ix2 (0 : Fin 8) (0 : Fin 128)) (ix2 (0 : Fin 1) (0 : Fin 1)) rfl (fun a => match a with | ⟨0, _⟩ => rfl | ⟨1, _⟩ => rfl)).trans ?_
  refine (pay3_apply _ _).trans ?_
  simp only [View.readAt_eq_ld, harg2.read_unread, harg3.read_unread, harg4.read_unread, harg10.read_unread, View.ld_unit_zero (S := S1024x1000) hz2, View.ld_unit_zero (S := S1024x1) hz2, View.ld_unit_zero (S := S1024x2) hz2]
  exact congrArg (· + _) (ld_corner xs2)

end Cert.KernelIdeal.KValue

end
-- ==== Proof.KInvariant.lean ====
/-
  The accumulators after each grid point.

  Point `n` of the 64 belongs to core `n / 32` and is that core's step `n % 32`; it stages row block `n` of the inputs.
  After point `n`, entry (0, 0) of each accumulator is the sum of its column's block sums over the blocks of the same
  core met so far, the stretch `[n - n % 32, n]`: the first point of a core starts the sum afresh (the accumulators
  are reset there) and every later point adds its block.  At a core's last point (`n % 32 = 31`) the output blocks
  hold the same three numbers at entry (0, 0, 0).
-/
import proofs.«409709_j23218593202209_2_alg».proof.Proof.KPieces

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The three column sums of the row block staged at point `s` (zero past the grid's last point). -/
def blkPu (c : Dev nD) (s : ℕ) : EReal :=
  if h : s < cfg0.N then colPu (iblk m c 0 ⟨s, h⟩) (iblk m c 1 ⟨s, h⟩) (iblk m c 2 ⟨s, h⟩) else 0
def blkCe (c : Dev nD) (s : ℕ) : EReal :=
  if h : s < cfg0.N then colCe (iblk m c 0 ⟨s, h⟩) (iblk m c 1 ⟨s, h⟩) (iblk m c 2 ⟨s, h⟩) else 0
def blkPos (c : Dev nD) (s : ℕ) : EReal :=
  if h : s < cfg0.N then colPos (iblk m c 2 ⟨s, h⟩) else 0

theorem blkPu_pos (c : Dev nD) (t : Fin cfg0.N) :
    blkPu m c t.val = colPu (iblk m c 0 t) (iblk m c 1 t) (iblk m c 2 t) := by
  rw [blkPu, dif_pos t.isLt]
theorem blkCe_pos (c : Dev nD) (t : Fin cfg0.N) :
    blkCe m c t.val = colCe (iblk m c 0 t) (iblk m c 1 t) (iblk m c 2 t) := by
  rw [blkCe, dif_pos t.isLt]
theorem blkPos_pos (c : Dev nD) (t : Fin cfg0.N) : blkPos m c t.val = colPos (iblk m c 2 t) := by
  rw [blkPos, dif_pos t.isLt]

/-- At a core's first point the stretch of blocks met so far is the point's own block. -/
theorem stretch_first (f : ℕ → EReal) (n : ℕ) (h0 : n % 32 = 0) :
    f n = ∑ s ∈ Finset.Ico (n - n % 32) (n + 1), f s := by
  rw [h0, Nat.sub_zero, Nat.Ico_succ_singleton, Finset.sum_singleton]

/-- At a later point of the core the stretch is the one met at the point before, and the point's own block. -/
theorem stretch_next (f : ℕ → EReal) (n : ℕ) (h0 : ¬n % 32 = 0) (acc : EReal)
    (hacc : acc = ∑ s ∈ Finset.Ico ((n - 1) - (n - 1) % 32) ((n - 1) + 1), f s) :
    acc + f n = ∑ s ∈ Finset.Ico (n - n % 32) (n + 1), f s := by
  have h1 : (n - 1) - (n - 1) % 32 = n - n % 32 := by omega
  have h2 : n - 1 + 1 = n := by omega
  rw [hacc, h1, h2, Finset.sum_Ico_succ_top (Nat.sub_le n (n % 32))]

/-- After point `n`: entry (0, 0) of each accumulator is its column's block sums added over the core's blocks so far. -/
theorem acc_after (c : Dev nD) (n : ℕ) (h : n < cfg0.N) :
    (outsAt0 m c n h).2.2.2.1 (ix2 (0 : Fin 8) (0 : Fin 128)) = ∑ s ∈ Finset.Ico (n - n % 32) (n + 1), blkPu m c s
    ∧ (outsAt0 m c n h).2.2.2.2.1 (ix2 (0 : Fin 8) (0 : Fin 128)) = ∑ s ∈ Finset.Ico (n - n % 32) (n + 1), blkCe m c s
    ∧ (outsAt0 m c n h).2.2.2.2.2 (ix2 (0 : Fin 8) (0 : Fin 128)) = ∑ s ∈ Finset.Ico (n - n % 32) (n + 1), blkPos m c s := by
  induction n with
  | zero =>
    rw [outsAt0_A m c ⟨0, h⟩ rfl (show ¬(0 : ℕ) % 32 = 31 by decide)]
    dsimp only
    rw [first_0, first_1, first_2]
    exact ⟨(blkPu_pos m c ⟨0, h⟩).symm.trans (stretch_first _ 0 rfl),
      (blkCe_pos m c ⟨0, h⟩).symm.trans (stretch_first _ 0 rfl),
      (blkPos_pos m c ⟨0, h⟩).symm.trans (stretch_first _ 0 rfl)⟩
  | succ n ih =>
    have hN : cfg0.N = 64 := N_0
    have ih' := ih (Nat.lt_of_succ_lt h)
    by_cases h0 : (n + 1) % 32 = 0
    · have h1 : ¬(n + 1) % 32 = 31 := by omega
      rw [outsAt0_A m c ⟨n + 1, h⟩ h0 h1]
      dsimp only
      rw [first_0, first_1, first_2]
      exact ⟨(blkPu_pos m c ⟨n + 1, h⟩).symm.trans (stretch_first _ (n + 1) h0),
        (blkCe_pos m c ⟨n + 1, h⟩).symm.trans (stretch_first _ (n + 1) h0),
        (blkPos_pos m c ⟨n + 1, h⟩).symm.trans (stretch_first _ (n + 1) h0)⟩
    · by_cases h1 : (n + 1) % 32 = 31
      · rw [outsAt0_C m c ⟨n + 1, h⟩ h0 h1]
        dsimp only
        rw [last_0, last_1, last_2, ← blkPu_pos m c ⟨n + 1, h⟩, ← blkCe_pos m c ⟨n + 1, h⟩, ← blkPos_pos m c ⟨n + 1, h⟩]
        exact ⟨stretch_next _ (n + 1) h0 _ ih'.1, stretch_next _ (n + 1) h0 _ ih'.2.1, stretch_next _ (n + 1) h0 _ ih'.2.2⟩
      · rw [outsAt0_B m c ⟨n + 1, h⟩ h0 h1]
        dsimp only
        rw [middle_0, middle_1, middle_2, ← blkPu_pos m c ⟨n + 1, h⟩, ← blkCe_pos m c ⟨n + 1, h⟩, ← blkPos_pos m c ⟨n + 1, h⟩]
        exact ⟨stretch_next _ (n + 1) h0 _ ih'.1, stretch_next _ (n + 1) h0 _ ih'.2.1, stretch_next _ (n + 1) h0 _ ih'.2.2⟩

/-- At a core's last point the output blocks hold the core's three totals at entry (0, 0, 0). -/
theorem out_at_last (c : Dev nD) (n : ℕ) (h : n < cfg0.N) (h31 : n % 32 = 31) :
    (outsAt0 m c n h).1 (ix3 (0 : Fin 1) (0 : Fin 8) (0 : Fin 128)) = ∑ s ∈ Finset.Ico (n - 31) (n + 1), blkPu m c s
    ∧ (outsAt0 m c n h).2.1 (ix3 (0 : Fin 1) (0 : Fin 8) (0 : Fin 128)) = ∑ s ∈ Finset.Ico (n - 31) (n + 1), blkCe m c s
    ∧ (outsAt0 m c n h).2.2.1 (ix3 (0 : Fin 1) (0 : Fin 8) (0 : Fin 128)) = ∑ s ∈ Finset.Ico (n - 31) (n + 1), blkPos m c s := by
  have h0 : ¬n % 32 = 0 := by omega
  have hN : cfg0.N = 64 := N_0
  have ih' := acc_after m c (n - 1) (by omega)
  have e31 : n - 31 = n - n % 32 := by omega
  rw [outsAt0_C m c ⟨n, h⟩ h0 h31]
  dsimp only
  rw [lastOut_0, lastOut_1, lastOut_2, ← blkPu_pos m c ⟨n, h⟩, ← blkCe_pos m c ⟨n, h⟩, ← blkPos_pos m c ⟨n, h⟩, e31]
  exact ⟨stretch_next _ n h0 _ ih'.1, stretch_next _ n h0 _ ih'.2.1, stretch_next _ n h0 _ ih'.2.2⟩

end Cert.KernelIdeal.KValue

end
-- ==== Proof.KFinal.lean ====
/-
  The kernel program's run, read: its two results as the host tail of the two cores' totals.

  Output window `w` (3, 4, 5) has one block per core, written back after the core's last point; entry (core, 0, 0) of
  its array after the run is therefore the core's total of that column.  The lines after the region take those two
  entries of each array, add them (from zero), and form `-(pu / max 1 npos) · 1` and `ce / npos`.
-/
import proofs.«409709_j23218593202209_2_alg».proof.Proof.KInvariant
import Idealize.ShloMosaic.Lib.StableHlo.Run
import Idealize.ShloMosaic.Lib.Pipeline.Value
import Idealize.ShloMosaic.Lib.IdealHost

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- A core's totals: its 32 blocks' column sums added. -/
def corePu (c : Dev nD) (k : Fin 2) : EReal := ∑ s ∈ Finset.Ico (32 * k.val) (32 * k.val + 32), blkPu m c s
def coreCe (c : Dev nD) (k : Fin 2) : EReal := ∑ s ∈ Finset.Ico (32 * k.val) (32 * k.val + 32), blkCe m c s
def corePos (c : Dev nD) (k : Fin 2) : EReal := ∑ s ∈ Finset.Ico (32 * k.val) (32 * k.val + 32), blkPos m c s

/-! ## The first result's array after the run -/

/-- What the first output block holds after point `n` (zero past the grid's last point). -/
private def outPu (c : Dev nD) (n : ℕ) : Vec Ideal S1x8x128 .f32 :=
  if h : n < cfg0.N then (outsAt0 m c n h).1 else fun _ => 0

private theorem outPu_of_lt (c : Dev nD) (n : ℕ) (h : n < cfg0.N) : outPu m c n = (outsAt0 m c n h).1 := dif_pos h

/-- The whole array: row `k` is the block core `k` leaves at its last point, `32 k + 31`. -/
private def G3 (c : Dev nD) : S2x8x128.Idx → Elt Ideal .f32 :=
  fun i => outPu m c (32 * (i 0).val + 31) (ix3 (0 : Fin 1) (i 1) (i 2))

/-- The block index of the first output window at point `t`: (core, 0, 0), decided over the grid. -/
private theorem idx3 : ∀ t : Fin cfg0.N, win0_3.index t (0 : Fin 3) = t.val / 32 ∧ win0_3.index t (1 : Fin 3) = 0
    ∧ win0_3.index t (2 : Fin 3) = 0 :=
  (by decide +kernel : ∀ t : Fin grid0.N, win0_3.index t (0 : Fin 3) = t.val / 32 ∧ win0_3.index t (1 : Fin 3) = 0
    ∧ win0_3.index t (2 : Fin 3) = 0)

/-- What a core's last point writes back is its row of `G3`. -/
private theorem flushed_eq3 (c : Dev nD) (t : Fin cfg0.N) (hf : (cfg0.win 3).flush t = true) :
    (dats m 0 c).flushed 3 t = ((cfg0.win 3).blk t).view.read (Elt Ideal) (G3 m c) := by
  have h31 : t.val % 32 = 31 := (flush0_3 t).mp hf
  obtain ⟨e0, e1, e2⟩ := idx3 t
  show (cfg0.win 3).cut (grid0.coords t) ((dats m 0 c).after 3 t) = _
  rw [after0_3]
  funext j
  rw [View.read_apply]
  show (outsAt0 m c t.val t.isLt).1 ((cfg0.win 3).xinj (grid0.coords t) j)
    = outPu m c (32 * ((((cfg0.win 3).blk t).view.emb j) 0).val + 31)
        (ix3 (0 : Fin 1) ((((cfg0.win 3).blk t).view.emb j) 1) ((((cfg0.win 3).blk t).view.emb j) 2))
  have hj0 : (j 0).val < 1 := (j 0).isLt
  have hn : 32 * ((((cfg0.win 3).blk t).view.emb j) 0).val + 31 = t.val := by
    show 32 * (win0_3.index t (0 : Fin 3) * 1 + 1 * (j 0).val) + 31 = t.val
    rw [e0]; omega
  rw [hn, outPu_of_lt m c t.val t.isLt]
  refine congrArg (outsAt0 m c t.val t.isLt).1 ?_
  funext a
  apply Fin.ext
  match a with
  | ⟨0, _⟩ => show (j 0).val = 0; omega
  | ⟨1, _⟩ => show (j 1).val = win0_3.index t (1 : Fin 3) * 8 + 1 * (j 1).val; rw [e1]; omega
  | ⟨2, _⟩ => show (j 2).val = win0_3.index t (2 : Fin 3) * 128 + 1 * (j 2).val; rw [e2]; omega

/-- Every entry of the array lies in the block its row's core writes back at its last point. -/
private theorem cover3 (i : S2x8x128.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hN : cfg0.N = 64 := N_0
  have hlt : 32 * (i 0).val + 31 < cfg0.N := by omega
  obtain ⟨e0, e1, e2⟩ := idx3 ⟨32 * (i 0).val + 31, hlt⟩
  refine ⟨⟨32 * (i 0).val + 31, hlt⟩, (flush0_3 _).mpr (by show (32 * (i 0).val + 31) % 32 = 31; omega), ?_⟩
  show i ∈ ((View.whole main_v16_0).slice (win0_3.rect ⟨32 * (i 0).val + 31, hlt⟩)).set
  rw [View.set_slice_whole, Rect.mem_set_unit]
  have e0' : win0_3.index ⟨32 * (i 0).val + 31, hlt⟩ (0 : Fin 3) = (32 * (i 0).val + 31) / 32 := e0
  intro a
  match a with
  | ⟨0, _⟩ =>
    show win0_3.index ⟨32 * (i 0).val + 31, hlt⟩ (0 : Fin 3) * 1 ≤ (i 0).val
      ∧ (i 0).val < win0_3.index ⟨32 * (i 0).val + 31, hlt⟩ (0 : Fin 3) * 1 + 1
    rw [e0']; omega
  | ⟨1, _⟩ =>
    show win0_3.index ⟨32 * (i 0).val + 31, hlt⟩ (1 : Fin 3) * 8 ≤ (i 1).val
      ∧ (i 1).val < win0_3.index ⟨32 * (i 0).val + 31, hlt⟩ (1 : Fin 3) * 8 + 8
    rw [e1]; omega
  | ⟨2, _⟩ =>
    show win0_3.index ⟨32 * (i 0).val + 31, hlt⟩ (2 : Fin 3) * 128 ≤ (i 2).val
      ∧ (i 2).val < win0_3.index ⟨32 * (i 0).val + 31, hlt⟩ (2 : Fin 3) * 128 + 128
    rw [e2]; omega

/-- So the first result's array ends holding `G3`. -/
private theorem final3 (c : Dev nD) : (dats m 0 c).arrAt 3 cfg0.N = G3 m c :=
  (dats m 0 c).arrAt_eq_of_cover 3 (G3 m c) (flushed_eq3 m c) cover3

/-- Its entry (k, 0, 0) is core `k`'s total of the first column. -/
private theorem G3_at (c : Dev nD) (k : Fin 2) : G3 m c (ix3 k (0 : Fin 8) (0 : Fin 128)) = corePu m c k := by
  have hk : k.val < 2 := k.isLt
  have hN : cfg0.N = 64 := N_0
  have hlt : 32 * k.val + 31 < cfg0.N := by omega
  show outPu m c (32 * k.val + 31) (ix3 (0 : Fin 1) (0 : Fin 8) (0 : Fin 128)) = _
  rw [outPu_of_lt m c _ hlt, (out_at_last m c (32 * k.val + 31) hlt (by omega)).1]
  unfold corePu
  rw [show 32 * k.val + 31 - 31 = 32 * k.val from by omega, show 32 * k.val + 31 + 1 = 32 * k.val + 32 from by omega]

/-! ## The second result's array after the run -/

/-- What the second output block holds after point `n` (zero past the grid's last point). -/
private def outCe (c : Dev nD) (n : ℕ) : Vec Ideal S1x8x128 .f32 :=
  if h : n < cfg0.N then (outsAt0 m c n h).2.1 else fun _ => 0

private theorem outCe_of_lt (c : Dev nD) (n : ℕ) (h : n < cfg0.N) : outCe m c n = (outsAt0 m c n h).2.1 := dif_pos h

/-- The whole array: row `k` is the block core `k` leaves at its last point, `32 k + 31`. -/
private def G4 (c : Dev nD) : S2x8x128.Idx → Elt Ideal .f32 :=
  fun i => outCe m c (32 * (i 0).val + 31) (ix3 (0 : Fin 1) (i 1) (i 2))

/-- The block index of the second output window at point `t`: (core, 0, 0), decided over the grid. -/
private theorem idx4 : ∀ t : Fin cfg0.N, win0_4.index t (0 : Fin 3) = t.val / 32 ∧ win0_4.index t (1 : Fin 3) = 0
    ∧ win0_4.index t (2 : Fin 3) = 0 :=
  (by decide +kernel : ∀ t : Fin grid0.N, win0_4.index t (0 : Fin 3) = t.val / 32 ∧ win0_4.index t (1 : Fin 3) = 0
    ∧ win0_4.index t (2 : Fin 3) = 0)

/-- What a core's last point writes back is its row of `G4`. -/
private theorem flushed_eq4 (c : Dev nD) (t : Fin cfg0.N) (hf : (cfg0.win 4).flush t = true) :
    (dats m 0 c).flushed 4 t = ((cfg0.win 4).blk t).view.read (Elt Ideal) (G4 m c) := by
  have h31 : t.val % 32 = 31 := (flush0_4 t).mp hf
  obtain ⟨e0, e1, e2⟩ := idx4 t
  show (cfg0.win 4).cut (grid0.coords t) ((dats m 0 c).after 4 t) = _
  rw [after0_4]
  funext j
  rw [View.read_apply]
  show (outsAt0 m c t.val t.isLt).2.1 ((cfg0.win 4).xinj (grid0.coords t) j)
    = outCe m c (32 * ((((cfg0.win 4).blk t).view.emb j) 0).val + 31)
        (ix3 (0 : Fin 1) ((((cfg0.win 4).blk t).view.emb j) 1) ((((cfg0.win 4).blk t).view.emb j) 2))
  have hj0 : (j 0).val < 1 := (j 0).isLt
  have hn : 32 * ((((cfg0.win 4).blk t).view.emb j) 0).val + 31 = t.val := by
    show 32 * (win0_4.index t (0 : Fin 3) * 1 + 1 * (j 0).val) + 31 = t.val
    rw [e0]; omega
  rw [hn, outCe_of_lt m c t.val t.isLt]
  refine congrArg (outsAt0 m c t.val t.isLt).2.1 ?_
  funext a
  apply Fin.ext
  match a with
  | ⟨0, _⟩ => show (j 0).val = 0; omega
  | ⟨1, _⟩ => show (j 1).val = win0_4.index t (1 : Fin 3) * 8 + 1 * (j 1).val; rw [e1]; omega
  | ⟨2, _⟩ => show (j 2).val = win0_4.index t (2 : Fin 3) * 128 + 1 * (j 2).val; rw [e2]; omega

/-- Every entry of the array lies in the block its row's core writes back at its last point. -/
private theorem cover4 (i : S2x8x128.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 128 := (i 2).isLt
  have hN : cfg0.N = 64 := N_0
  have hlt : 32 * (i 0).val + 31 < cfg0.N := by omega
  obtain ⟨e0, e1, e2⟩ := idx4 ⟨32 * (i 0).val + 31, hlt⟩
  refine ⟨⟨32 * (i 0).val + 31, hlt⟩, (flush0_4 _).mpr (by show (32 * (i 0).val + 31) % 32 = 31; omega), ?_⟩
  show i ∈ ((View.whole main_v16_1).slice (win0_4.rect ⟨32 * (i 0).val + 31, hlt⟩)).set
  rw [View.set_slice_whole, Rect.mem_set_unit]
  have e0' : win0_4.index ⟨32 * (i 0).val + 31, hlt⟩ (0 : Fin 3) = (32 * (i 0).val + 31) / 32 := e0
  intro a
  match a with
  | ⟨0, _⟩ =>
    show win0_4.index ⟨32 * (i 0).val + 31, hlt⟩ (0 : Fin 3) * 1 ≤ (i 0).val
      ∧ (i 0).val < win0_4.index ⟨32 * (i 0).val + 31, hlt⟩ (0 : Fin 3) * 1 + 1
    rw [e0']; omega
  | ⟨1, _⟩ =>
    show win0_4.index ⟨32 * (i 0).val + 31, hlt⟩ (1 : Fin 3) * 8 ≤ (i 1).val
      ∧ (i 1).val < win0_4.index ⟨32 * (i 0).val + 31, hlt⟩ (1 : Fin 3) * 8 + 8
    rw [e1]; omega
  | ⟨2, _⟩ =>
    show win0_4.index ⟨32 * (i 0).val + 31, hlt⟩ (2 : Fin 3) * 128 ≤ (i 2).val
      ∧ (i 2).val < win0_4.index ⟨32 * (i 0).val + 31, hlt⟩ (2 : Fin 3) * 128 + 128
    rw [e2]; omega

/-- So the second result's array ends holding `G4`. -/
private theorem final4 (c : Dev nD) : (dats m 0 c).arrAt 4 cfg0.N = G4 m c :=
  (dats m 0 c).arrAt_eq_of_cover 4 (G4 m c) (flushed_eq4 m c) cover4

/-- Its entry (k, 0, 0) is core `k`'s total of the second column. -/
private theorem G4_at (c : Dev nD) (k : Fin 2) : G4 m c (ix3 k (0 : Fin 8) (0 : Fin 128)) = coreCe m c k := by
  have hk : k.val < 2 := k.isLt
  have hN : cfg0.N = 64 := N_0
  have hlt : 32 * k.val + 31 < cfg0.N := by omega
  show outCe m c (32 * k.val + 31) (ix3 (0 : Fin 1) (0 : Fin 8) (0 : Fin 128)) = _
  rw [outCe_of_lt m c _ hlt, (out_at_last m c (32 * k.val + 31) hlt (by omega)).2.1]
  unfold coreCe
  rw [show 32 * k.val + 31 - 31 = 32 * k.val from by omega, show 32 * k.val + 31 + 1 = 32 * k.val + 32 from by omega]

/-! ## The third result's array after the run -/

/-- What the third output block holds after point `n` (zero past the grid's last point). -/
private def outPos (c : Dev nD) (n : ℕ) : Vec Ideal S1x8x128 .f32 :=
  if h : n < cfg0.N then (outsAt0 m c n h).2.2.1 else fun _ => 0

private theorem outPos_of_lt (c : Dev nD) (n : ℕ) (h : n < cfg0.N) : outPos m c n = (outsAt0 m c n h).2.2.1 := dif_pos h

/-- The whole array: row `k` is the block core `k` leaves at its last point, `32 k + 31`. -/
private def G5 (c : Dev nD) : S2x8x128.Idx → Elt Ideal .f32 :=
  fun i => outPos m c (32 * (i 0).val + 31) (ix3 (0 : Fin 1) (i 1) (i 2))

/-- The block index of the third output window at point `t`: (core, 0, 0), decided over the grid. -/
private theorem idx5 : ∀ t : Fin cfg0.N, win0_5.index t (0 : Fin 3) = t.val / 32 ∧ win0_5.index t (1 : Fin 3) = 0
    ∧ win0_5.index t (2 : Fin 3) = 0 :=
  (by decide +kernel : ∀ t : Fin grid0.N, win0_5.index t (0 : Fin 3) = t.val / 32 ∧ win0_5.index t (1 : Fin 3) = 0
    ∧ win0_5.index t (2 : Fin 3) = 0)

/-- What a core's last point writes back is its row of `G5`. -/
private theorem flushed_eq5 (c : Dev nD) (t : Fin cfg0.N) (hf : (cfg0.win 5).flush t = true) :
    (dats m 0 c).flushed 5 t = ((cfg0.win 5).blk t).view.read (Elt Ideal) (G5 m c) := by
  have h31 : t.val % 32 = 31 := (flush0_5 t).mp hf
  obtain ⟨e0, e1, e2⟩ := idx5 t
  show (cfg0.win 5).cut (grid0.coords t) ((dats m 0 c).after 5 t) = _
  rw [after0_5]
  funext j
  rw [View.read_apply]
  show (outsAt0 m c t.val t.isLt).2.2.1 ((cfg0.win 5).xinj (grid0.coords t) j)
    = outPos m c (32 * ((((cfg0.win 5).blk t).view.emb j) 0).val + 31)
        (ix3 (0 : Fin 1) ((((cfg0.win 5).blk t).view.emb j) 1) ((((cfg0.win 5).blk t).view.emb j) 2))
  have hj0 : (j 0).val < 1 := (j 0).isLt
  have hn : 32 * ((((cfg0.win 5).blk t).view.emb j) 0).val + 31 = t.val := by
    show 32 * (win0_5.index t (0 : Fin 3) * 1 + 1 * (j 0).val) + 31 = t.val
    rw [e0]; omega
  rw [hn, outPos_of_lt m c t.val t.isLt]
  refine congrArg (outsAt0 m c t.val t.isLt).2.2.1 ?_
  funext a
  apply Fin.ext
  match a with
  | ⟨0, _⟩ => show (j 0).val = 0; omega
  | ⟨1, _⟩ => show (j 1).val = win0_5.index t (1 : Fin 3) * 8 + 1 * (j 1).val; rw [e1]; omega
  | ⟨2, _⟩ => show (j 2).val = win0_5.index t (2 : Fin 3) * 128 + 1 * (j 2).val; rw [e2]; omega

/-- Every entry of the array lies in the block its row's core writes back at its last point. -/
private theorem cover5 (i : S2x8x128.Idx) :
    ∃ t : Fin cfg0.N, (cfg0.win 5).flush t = true ∧ i ∈ ((cfg0.win 5).blk t).view.set := by
  have hi0 : (i 0).val < 2 := (i 0).isLt
  have hi1 : (i 1).val < 8 := (i 1).isLt
  have hi2 : (i 2).val < 128 := (i 2).isLt
  have hN : cfg0.N = 64 := N_0
  have hlt : 32 * (i 0).val + 31 < cfg0.N := by omega
  obtain ⟨e0, e1, e2⟩ := idx5 ⟨32 * (i 0).val + 31, hlt⟩
  refine ⟨⟨32 * (i 0).val + 31, hlt⟩, (flush0_5 _).mpr (by show (32 * (i 0).val + 31) % 32 = 31; omega), ?_⟩
  show i ∈ ((View.whole main_v16_2).slice (win0_5.rect ⟨32 * (i 0).val + 31, hlt⟩)).set
  rw [View.set_slice_whole, Rect.mem_set_unit]
  have e0' : win0_5.index ⟨32 * (i 0).val + 31, hlt⟩ (0 : Fin 3) = (32 * (i 0).val + 31) / 32 := e0
  intro a
  match a with
  | ⟨0, _⟩ =>
    show win0_5.index ⟨32 * (i 0).val + 31, hlt⟩ (0 : Fin 3) * 1 ≤ (i 0).val
      ∧ (i 0).val < win0_5.index ⟨32 * (i 0).val + 31, hlt⟩ (0 : Fin 3) * 1 + 1
    rw [e0']; omega
  | ⟨1, _⟩ =>
    show win0_5.index ⟨32 * (i 0).val + 31, hlt⟩ (1 : Fin 3) * 8 ≤ (i 1).val
      ∧ (i 1).val < win0_5.index ⟨32 * (i 0).val + 31, hlt⟩ (1 : Fin 3) * 8 + 8
    rw [e1]; omega
  | ⟨2, _⟩ =>
    show win0_5.index ⟨32 * (i 0).val + 31, hlt⟩ (2 : Fin 3) * 128 ≤ (i 2).val
      ∧ (i 2).val < win0_5.index ⟨32 * (i 0).val + 31, hlt⟩ (2 : Fin 3) * 128 + 128
    rw [e2]; omega

/-- So the third result's array ends holding `G5`. -/
private theorem final5 (c : Dev nD) : (dats m 0 c).arrAt 5 cfg0.N = G5 m c :=
  (dats m 0 c).arrAt_eq_of_cover 5 (G5 m c) (flushed_eq5 m c) cover5

/-- Its entry (k, 0, 0) is core `k`'s total of the third column. -/
private theorem G5_at (c : Dev nD) (k : Fin 2) : G5 m c (ix3 k (0 : Fin 8) (0 : Fin 128)) = corePos m c k := by
  have hk : k.val < 2 := k.isLt
  have hN : cfg0.N = 64 := N_0
  have hlt : 32 * k.val + 31 < cfg0.N := by omega
  show outPos m c (32 * k.val + 31) (ix3 (0 : Fin 1) (0 : Fin 8) (0 : Fin 128)) = _
  rw [outPos_of_lt m c _ hlt, (out_at_last m c (32 * k.val + 31) hlt (by omega)).2.2]
  unfold corePos
  rw [show 32 * k.val + 31 - 31 = 32 * k.val from by omega, show 32 * k.val + 31 + 1 = 32 * k.val + 32 from by omega]

/-! ## The lines after the region, read at the ideal values -/

/-- A rank-1 index set is its coordinate's range … -/
private def idxEquiv1 {n : Nat} : (⟨1, ![n]⟩ : Shape).Idx ≃ Fin n where
  toFun i := i 0
  invFun := ix1
  left_inv i := (eq_ix1 i).symm
  right_inv _ := rfl

/-- … so a sum over it is the sum over the coordinate. -/
private theorem sum_idx1 {n : Nat} (f : (⟨1, ![n]⟩ : Shape).Idx → EReal) : ∑ i, f i = ∑ a : Fin n, f (ix1 a) := by
  rw [← Equiv.sum_comp (idxEquiv1 (n := n)).symm f]
  rfl

/-- The slice [0:2, 0:1, 0:1] of an array, reshaped to [2], reads at `k` the array's entry (k, 0, 0). -/
private theorem pick_apply (A : S2x8x128.Idx → Elt Ideal .f32) (k : Fin 2) :
    shapeCast S2 (extractStridedSlice S2x1x1 ![0, 0, 0] A slices_S2x8x128_S2x1x1_0_0_0) shapeCasts_S2x1x1_S2 (ix1 k)
      = A (ix3 k (0 : Fin 8) (0 : Fin 128)) := by
  refine (shapeCast_apply _ shapeCasts_S2x1x1_S2 (ix1 k) (ix3 k (0 : Fin 1) (0 : Fin 1)) ?_).trans ?_
  · rw [Shape.rowMajor_val_three, Shape.rowMajor_val_one]
    show (k.val * 1 + 0) * 1 + 0 = k.val
    omega
  · refine extractStridedSlice_apply _ A _ _ (ix3 k (0 : Fin 8) (0 : Fin 128)) fun a => ?_
    match a with
    | ⟨0, _⟩ => show k.val = 0 + k.val; omega
    | ⟨1, _⟩ => show 0 = 0 + 0; omega
    | ⟨2, _⟩ => show 0 = 0 + 0; omega

/-- The host's total of an array's two entries (k, 0, 0): slice, reshape, sum from the constant zero. -/
private def redOf (A : S2x8x128.Idx → Elt Ideal .f32) : S_.Idx → Elt Ideal .f32 :=
  Host.reduceAdd (F := Ideal)
    (shapeCast S2 (extractStridedSlice S2x1x1 ![0, 0, 0] A slices_S2x8x128_S2x1x1_0_0_0) shapeCasts_S2x1x1_S2)
    (constant S_ .f32 0x00000000#32) reducesTo_S2_S_d0 h_S_

/-- It is their sum. -/
private theorem red_apply (A : S2x8x128.Idx → Elt Ideal .f32) (i : S_.Idx) :
    redOf A i = ∑ k : Fin 2, A (ix3 k (0 : Fin 8) (0 : Fin 128)) := by
  unfold redOf
  rw [hostReduceAdd_apply, Ideal.hostReduceAdd_total reducesTo_S2_S_d0 (fun b => b.elim0), constant_apply,
    Ideal.ofBits_zero_f32, zero_add, sum_idx1]
  exact Finset.sum_congr rfl fun k _ => pick_apply A k

/-- The first result's lines, as a function of the first and third arrays. -/
private def T30 (A3 A5 : S2x8x128.Idx → Elt Ideal .f32) : S1.Idx → Elt Ideal .f32 :=
  shapeCast S1 (mulf (Host.negf (Host.divf (redOf A3) (maximumf (constant (F := Ideal) S_ .f32 0x3F800000#32) (redOf A5))))
    (constant (F := Ideal) S_ .f32 0x3F800000#32)) shapeCasts_S_S1

/-- The second result's line, as a function of the second and third arrays. -/
private def T31 (A4 A5 : S2x8x128.Idx → Elt Ideal .f32) : S_.Idx → Elt Ideal .f32 :=
  Host.divf (F := Ideal) (φ := .f32) (redOf A4) (redOf A5)

/-- The first result's lines over the totals: `-(pu / max 1 npos) · 1`, reshaped to [1]. -/
private theorem tail30 (A3 A5 : S2x8x128.Idx → Elt Ideal .f32) :
    T30 A3 A5
      = fun _ => (-(Ideal.div (∑ k : Fin 2, A3 (ix3 k (0 : Fin 8) (0 : Fin 128)))
          (max 1 (∑ k : Fin 2, A5 (ix3 k (0 : Fin 8) (0 : Fin 128)))))) * 1 := by
  unfold T30
  funext j
  refine (shapeCast_apply _ shapeCasts_S_S1 j ix0 ?_).trans ?_
  · have hj : (j 0).val < 1 := (j 0).isLt
    rw [Shape.rowMajor_val_one]
    show (Shape.rowMajorPi S_.size ix0).val = (j 0).val
    rw [Shape.rowMajorPi_zero]; omega
  · show (-(Ideal.div (redOf A3 ix0) (max (Ideal.ofBits .f32 0x3F800000#32) (redOf A5 ix0)))) * Ideal.ofBits .f32 0x3F800000#32 = _
    rw [Ideal.ofBits_one_f32, red_apply, red_apply]

/-- The second result's line over the totals: `ce / npos`. -/
private theorem tail31 (A4 A5 : S2x8x128.Idx → Elt Ideal .f32) :
    T31 A4 A5
      = fun _ => Ideal.div (∑ k : Fin 2, A4 (ix3 k (0 : Fin 8) (0 : Fin 128))) (∑ k : Fin 2, A5 (ix3 k (0 : Fin 8) (0 : Fin 128))) := by
  unfold T31
  funext j
  show Ideal.div (redOf A4 j) (redOf A5 j) = _
  rw [red_apply, red_apply]

/-! ## The run, read -/

/-- The lines after the region leave, from any contents `W` of the buffers, the first result at its lines over the
    first and third arrays … -/
private theorem after30 (W : Valuation τ sig (Elt Ideal)) :
    StableHlo.after hostOps1 W (Proc.devRef .tc main_v30)
      = T30 (W (Proc.devRef .tc main_v16_0)) (W (Proc.devRef .tc main_v16_2)) := by
  after_results
  rfl

/-- … and the second at its line over the second and third. -/
private theorem after31 (W : Valuation τ sig (Elt Ideal)) :
    StableHlo.after hostOps1 W (Proc.devRef .tc main_v31)
      = T31 (W (Proc.devRef .tc main_v16_1)) (W (Proc.devRef .tc main_v16_2)) := by
  after_results
  rfl

/-- The first result after the run: the host's lines over the cores' totals of the first and third columns. -/
private theorem v30_eq (c : Dev nD) : Pipeline.afterTail₀ cfgs (dats m) 0 (V0 m) [hostOps1] c main_v30
    = fun _ => (-(Ideal.div (∑ k : Fin 2, corePu m c k) (max 1 (∑ k : Fin 2, corePos m c k)))) * 1 := by
  unfold Pipeline.afterTail₀
  refine (after30 _).trans ?_
  refine (congrArg₂ T30 ((Pipeline.withArrays_arr spec0 launch0.win.arr_inj c _ _ 3).trans (final3 m c))
    ((Pipeline.withArrays_arr spec0 launch0.win.arr_inj c _ _ 5).trans (final5 m c))).trans ?_
  refine (tail30 (G3 m c) (G5 m c)).trans ?_
  funext _
  simp only [G3_at, G5_at]

/-- The second result after the run: the second column's total over the third's. -/
private theorem v31_eq (c : Dev nD) : Pipeline.afterTail₀ cfgs (dats m) 0 (V0 m) [hostOps1] c main_v31
    = fun _ => Ideal.div (∑ k : Fin 2, coreCe m c k) (∑ k : Fin 2, corePos m c k) := by
  unfold Pipeline.afterTail₀
  refine (after31 _).trans ?_
  refine (congrArg₂ T31 ((Pipeline.withArrays_arr spec0 launch0.win.arr_inj c _ _ 4).trans (final4 m c))
    ((Pipeline.withArrays_arr spec0 launch0.win.arr_inj c _ _ 5).trans (final5 m c))).trans ?_
  refine (tail31 (G4 m c) (G5 m c)).trans ?_
  funext _
  simp only [G4_at, G5_at]

/-- Every weakly fair execution of the kernel program ends with its two results at the host tail of the cores' totals,
    the arguments unchanged. -/
theorem run_cores : θ_run defs (onTc (τ := τ) (main (F := Ideal))) ⟨m, fun _ => 0, ρ⟩ fun r => ∀ c : Dev nD,
      r.2.mem ((c.tc : Thread nD τ).loc main_v30)
        = (fun _ => (-(Ideal.div (∑ k : Fin 2, corePu m c k) (max 1 (∑ k : Fin 2, corePos m c k)))) * 1)
      ∧ r.2.mem ((c.tc : Thread nD τ).loc main_v31)
        = (fun _ => Ideal.div (∑ k : Fin 2, coreCe m c k) (∑ k : Fin 2, corePos m c k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v30 (Pipeline.mem_restRefs_of main_v30 (by decide) (by decide))).trans (v30_eq m c),
      ((h c).2 main_v31 (Pipeline.mem_restRefs_of main_v31 (by decide) (by decide))).trans (v31_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.Spec.lean ====
/-
  The loss both programs compute, as functions of the three argument arrays over the extended reals.

  For a row `v` of logits and the value `a` of the row at its label, with `M = max v` and `S = ∑ₖ exp (vₖ - M)`:
  the kernel takes the cross entropy as `(M + log S) - a` and the label's probability as `exp ((a - M) - log S)`;
  the reference takes the probability as `exp (a - M) / S` (a softmax entry) and the cross entropy as
  `-((a - M) - log S)` (a log-softmax entry, negated).  On a row of finite logits these agree: `M` is one of the
  logits, `S` is a positive real, and `exp (u - log S) = exp u / S`.  A label is clipped into `[0, 999]` before it
  indexes a row or the prior table; a row counts (is "positive") when its raw label is at most 999.  The kernel
  multiplies a row's terms by the 0/1 value of that test, the reference selects on it; the kernel counts the
  positive rows by adding those 0/1 values as numbers, the reference by adding them as 32-bit words.
-/
import Idealize.ShloMosaic.PureOps.Ideal
import Idealize.ShloMosaic.PureOps.Ideal.Laws
import Idealize.ShloMosaic.Lib.IdealHost
import Idealize.ShloMosaic.Lib.ValueIdx

noncomputable section

namespace Cert.Spec

open Idealize.ShloMosaic Idealize.ShloMosaic.ValueIdx

/-- A row of 1000 logits. -/
abbrev Row := Fin 1000 → EReal

/-- The row's maximum, as a fold of `max` from `-∞`. -/
def rowMax (v : Row) : EReal := (Finset.univ : Finset (Fin 1000)).fold max ⊥ v

/-- The softmax denominator of the shifted row. -/
def rowSumExp (v : Row) : EReal := ∑ k : Fin 1000, Ideal.exp (v k - rowMax v)

/-- The smoothing constant both programs add inside the logarithm (the f32 nearest 0.01). -/
def c01 : EReal := Ideal.ofBits .f32 0x3C23D70A#32

/-! ### The kernel's forms -/

def ceK (v : Row) (a : EReal) : EReal := (rowMax v + Ideal.log (rowSumExp v)) - a
def pK (v : Row) (a : EReal) : EReal := Ideal.exp ((a - rowMax v) - Ideal.log (rowSumExp v))
def puK (v : Row) (a : EReal) : EReal := 0 - Ideal.log ((1 - pK v a) + c01)

/-! ### The reference's forms -/

def pR (v : Row) (a : EReal) : EReal := Ideal.div (Ideal.exp (a - rowMax v)) (rowSumExp v)
def puR (v : Row) (a : EReal) : EReal := -(Ideal.log ((1 - pR v a) + c01))
def ceR (v : Row) (a : EReal) : EReal := -((a - rowMax v) - Ideal.log (rowSumExp v))

/-! ### Labels -/

/-- A label clipped into `[0, 999]` (signed). -/
def safeLab (l : BitVec 32) : BitVec 32 := IntOp.minsi 999#32 (IntOp.maxsi 0#32 l)

/-- The clipped label lies in `[0, 999]`, read signed: the inner maximum with 0 is not negative, and the outer
    minimum with 999 is at most 999 and, being one of two numbers that are not negative, is not negative either. -/
theorem safeLab_bounds (l : BitVec 32) : 0 ≤ (safeLab l).toInt ∧ (safeLab l).toInt ≤ 999 := by
  have h999 : (999#32 : BitVec 32).toInt = 999 := by decide
  have h0 : (0#32 : BitVec 32).toInt = 0 := by decide
  unfold safeLab IntOp.minsi IntOp.maxsi
  by_cases h1 : l.slt 0#32 = true
  · rw [if_pos h1]
    by_cases h2 : (999#32 : BitVec 32).slt 0#32 = true
    · rw [if_pos h2, h999]; omega
    · rw [if_neg h2, h0]; omega
  · rw [if_neg h1]
    have hl : 0 ≤ l.toInt := by
      simp only [BitVec.slt, h0, decide_eq_true_eq, not_lt] at h1; exact h1
    by_cases h2 : (999#32 : BitVec 32).slt l = true
    · rw [if_pos h2, h999]; omega
    · rw [if_neg h2]
      simp only [BitVec.slt, h999, decide_eq_true_eq, not_lt] at h2
      exact ⟨hl, h2⟩

/-- A word that is not negative read signed reads the same unsigned. -/
theorem toInt_eq_toNat_of_nonneg (s : BitVec 32) (h : 0 ≤ s.toInt) : s.toInt = (s.toNat : ℤ) := by
  rw [BitVec.toInt_eq_toNat_cond] at h ⊢
  by_cases hc : 2 * s.toNat < 2 ^ 32
  · rw [if_pos hc]
  · rw [if_neg hc] at h; have := s.isLt; omega

/-- The clipped label reads the same signed and unsigned … -/
theorem safeLab_toInt (l : BitVec 32) : (safeLab l).toInt = ((safeLab l).toNat : ℤ) :=
  toInt_eq_toNat_of_nonneg _ (safeLab_bounds l).1

/-- … and is at most 999. -/
theorem safeLab_toNat_le (l : BitVec 32) : (safeLab l).toNat ≤ 999 := by
  have h := (safeLab_bounds l).2
  rw [safeLab_toInt] at h
  omega

/-- The clipped label as a column number. -/
def labIdx (l : BitVec 32) : Fin 1000 := ⟨(safeLab l).toNat, Nat.lt_succ_of_le (safeLab_toNat_le l)⟩

/-- Whether a row is positive: its raw label is at most 999 (signed). -/
def posBit (l : BitVec 32) : BitVec 1 := IntOp.cmpi .sle l 999#32

/-- The test's 0/1 value as a number. -/
def posf (l : BitVec 32) : EReal := (((posBit l).toNat : ℝ) : EReal)

/-! ### One row's terms -/

def termPuK (v : Row) (l : BitVec 32) (p : EReal) : EReal := puK v (v (labIdx l)) * (posf l * p)
def termCeK (v : Row) (l : BitVec 32) : EReal := ceK v (v (labIdx l)) * posf l
def termPuR (v : Row) (l : BitVec 32) (p : EReal) : EReal := if posBit l = 1#1 then puR v (v (labIdx l)) * p else 0
def termCeR (v : Row) (l : BitVec 32) : EReal := if posBit l = 1#1 then ceR v (v (labIdx l)) else 0

/-! ### The arrays -/

section Arrays

variable (x : (⟨2, ![65536, 1000]⟩ : Shape).Idx → EReal) (lab : (⟨1, ![65536]⟩ : Shape).Idx → BitVec 32)
  (pri : (⟨1, ![1000]⟩ : Shape).Idx → EReal)

/-- Row `n` of the logits. -/
def xrow (n : Fin 65536) : Row := fun k => x (ix2 n k)
/-- Row `n`'s raw label. -/
def labAt (n : Fin 65536) : BitVec 32 := lab (ix1 n)
/-- The prior at row `n`'s clipped label. -/
def priAt (n : Fin 65536) : EReal := pri (ix1 (labIdx (labAt lab n)))

def sumPuK : EReal := ∑ n : Fin 65536, termPuK (xrow x n) (labAt lab n) (priAt lab pri n)
def sumCeK : EReal := ∑ n : Fin 65536, termCeK (xrow x n) (labAt lab n)
def sumPos : EReal := ∑ n : Fin 65536, posf (labAt lab n)
def sumPuR : EReal := ∑ n : Fin 65536, termPuR (xrow x n) (labAt lab n) (priAt lab pri n)
def sumCeR : EReal := ∑ n : Fin 65536, termCeR (xrow x n) (labAt lab n)
/-- The reference's count of positive rows: the 0/1 words added as 32-bit words. -/
def cnt : BitVec 32 := (Finset.univ : Finset (Fin 65536)).fold IntOp.addi 0#32 (fun n => (posBit (labAt lab n)).setWidth 32)

/-- The kernel's objective and cross entropy. -/
def objK : EReal := (-(Ideal.div (sumPuK x lab pri) (max 1 (sumPos lab)))) * 1
def crossK : EReal := Ideal.div (sumCeK x lab) (sumPos lab)
/-- The reference's. -/
def objR : EReal := (-(Ideal.div (sumPuR x lab pri) ((((IntOp.maxsi 1#32 (cnt lab)).toInt : ℝ) : EReal)))) * 1
def crossR : EReal := Ideal.div (sumCeR x lab) ((((cnt lab).toInt : ℝ) : EReal))

end Arrays

end Cert.Spec

end
-- ==== Proof.KBlocks.lean ====
/-
  The staged blocks, read off the arrays the region finds.

  Point `t` of the grid stages row block `t` of each input: rows `1024 t .. 1024 t + 1023`.  The first input is the
  logits themselves.  The second is the column of clipped labels, which the host made by clipping the labels into
  `[0, 999]` and reshaping.  The third has two columns the host laid side by side: the positive flag as a number, and
  that flag times the prior gathered at the clipped label (the gather's start index is the clipped label, already in
  range, so its clamp changes nothing).
-/
import proofs.«409709_j23218593202209_2_alg».proof.Proof.Gen.KernelIdeal.Frame
import proofs.«409709_j23218593202209_2_alg».proof.Proof.Spec
import Idealize.ShloMosaic.Lib.StableHlo.Run
import Idealize.ShloMosaic.Lib.StableHlo.Predicate
import Idealize.ShloMosaic.Lib.ValueLayout
import Idealize.ShloMosaic.Lib.Pipeline.Value

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The three argument arrays on core `c`. -/
abbrev argX (c : Dev nD) := m ((c.tc : Thread nD τ).loc main_arg0)
abbrev argL (c : Dev nD) := m ((c.tc : Thread nD τ).loc main_arg1)
abbrev argP (c : Dev nD) := m ((c.tc : Thread nD τ).loc main_arg2)

/-- Row `r` of block `t` is row `1024 t + r` of the arrays. -/
def gRow (t : Fin cfg0.N) (r : Fin 1024) : Fin 65536 :=
  ⟨1024 * t.val + r.val, by have := lt_of_lt_of_eq t.isLt (show cfg0.N = 64 from N_0); have := r.isLt; omega⟩

/-- The three staged blocks at point `t`, at their literal types. -/
abbrev xblk (c : Dev nD) (t : Fin cfg0.N) : Vec Ideal S1024x1000 .f32 := iblk m c 0 t
abbrev lblk (c : Dev nD) (t : Fin cfg0.N) : Vec Ideal S1024x1 .i32 := iblk m c 1 t
abbrev sblk (c : Dev nD) (t : Fin cfg0.N) : Vec Ideal S1024x2 .f32 := iblk m c 2 t

/-- The logits' block. -/
theorem xblk_at (c : Dev nD) (t : Fin cfg0.N) (r : Fin 1024) (k : Fin 1000) :
    xblk m c t (ix2 r k) = argX m c (ix2 (gRow t r) k) := by
  have hi := (by decide +kernel : ∀ t : Fin grid0.N, win0_0.index t (0 : Fin 2) = t.val ∧ win0_0.index t (1 : Fin 2) = 0) t
  unfold xblk iblk
  rw [View.read_apply, V_main_arg0]
  show m ((c.tc : Thread nD τ).loc main_arg0) _ = m ((c.tc : Thread nD τ).loc main_arg0) _
  congr 1
  funext a
  apply Fin.ext
  match a with
  | ⟨0, _⟩ => show win0_0.index t 0 * 1024 + 1 * r.val = 1024 * t.val + r.val; rw [hi.1]; omega
  | ⟨1, _⟩ => show win0_0.index t 1 * 1000 + 1 * k.val = k.val; rw [hi.2]; omega

/-! ### The labels' column -/

/-- The clipped labels as the host writes them: the minimum with 999 of the maximum with 0, entry by entry. -/
private abbrev clipV (l : IVec S65536 32) : IVec S65536 32 :=
  minsi (broadcastInDim S65536 ![] bcast_S_S65536 (id (constantI S_ 32 999#32)))
    (maxsi (broadcastInDim S65536 ![] bcast_S_S65536 (id (constantI S_ 32 0#32))) l)

/-- Its entry at row `n` is the clipped label of row `n`. -/
private theorem clipV_apply (l : IVec S65536 32) (n : Fin 65536) : clipV l (ix1 n) = Cert.Spec.safeLab (l (ix1 n)) := rfl

set_option maxHeartbeats 400000 in
/-- The second input's array, as the region finds it: the clipped labels reshaped to a column. -/
private theorem V_main_v12 (c : Dev nD) : (V m c main_v12 : S65536x1.Idx → BitVec 32)
    = shapeCast S65536x1 (clipV (argL m c)) shapeCasts_S65536_S65536x1 := by
  dsimp only [Gen.V, Gen.V0]
  simp only [Gen.hostOps0, Gen.hostOps0_1, Gen.hostOps0_2, List.flatten_cons, List.flatten_nil, List.append_nil,
    List.cons_append, List.nil_append]
  after_results
  rfl

/-- Entry `(r, 0)` of block `t` of the column is the column's entry `(1024 t + r, 0)`. -/
private theorem lblk_read (c : Dev nD) (t : Fin cfg0.N) (r : Fin 1024) :
    lblk m c t (ix2 r (0 : Fin 1)) = (V m c main_v12 : S65536x1.Idx → BitVec 32) (ix2 (gRow t r) (0 : Fin 1)) := by
  have hi := (by decide +kernel : ∀ t : Fin grid0.N, win0_1.index t (0 : Fin 2) = t.val ∧ win0_1.index t (1 : Fin 2) = 0) t
  unfold lblk iblk
  rw [View.read_apply]
  show V m c main_v12 _ = V m c main_v12 _
  congr 1
  funext a
  apply Fin.ext
  match a with
  | ⟨0, _⟩ => show win0_1.index t 0 * 1024 + 1 * r.val = 1024 * t.val + r.val; rw [hi.1]; omega
  | ⟨1, _⟩ => show win0_1.index t 1 * 1 + 1 * 0 = 0; rw [hi.2]

/-- The labels' block holds the clipped labels. -/
theorem lblk_at (c : Dev nD) (t : Fin cfg0.N) (r : Fin 1024) :
    lblk m c t (ix2 r (0 : Fin 1)) = Cert.Spec.safeLab (Cert.Spec.labAt (argL m c) (gRow t r)) := by
  rw [lblk_read, V_main_v12]
  rw [shapeCast_apply (clipV (argL m c)) _ (ix2 (gRow t r) (0 : Fin 1)) (ix1 (gRow t r)) (by
    rw [Shape.rowMajor_val_two, Shape.rowMajor_val_one]
    show (gRow t r).val = (gRow t r).val * 1 + 0
    omega)]
  rfl

/-! ### The side block's two columns -/

/-- The positive flag as a number, row by row. -/
private abbrev posV (l : IVec S65536 32) : FVec Ideal S65536 .f32 :=
  uitofp .f32 (cmpi .sle l (broadcastInDim S65536 ![] bcast_S_S65536 (constantI S_ 32 999#32)))

/-- Its entry at row `n` is the flag of row `n`'s raw label. -/
private theorem posV_apply (l : IVec S65536 32) (n : Fin 65536) : posV l (ix1 n) = Cert.Spec.posf (l (ix1 n)) := rfl

/-- The gather's start indices: the clipped label, with 1000 added where it is negative (it never is). -/
private abbrev startV (l : IVec S65536 32) : IVec S65536 32 :=
  select (cmpi .slt (clipV l) (broadcastInDim S65536 ![] bcast_S_S65536 (constantI S_ 32 0#32)))
    (addi (clipV l) (broadcastInDim S65536 ![] bcast_S_S65536 (constantI S_ 32 1000#32))) (clipV l)

/-- The prior table gathered at the start indices. -/
private abbrev gathV (l : IVec S65536 32) (p : FVec Ideal S1000 .f32) : FVec Ideal S65536 .f32 :=
  Host.gather gather_S1000_S65536x1_S65536_n_0_n_n_0_1_1 p (broadcastInDim S65536x1 ![0] bcast_S65536_S65536x1_0 (startV l))

set_option maxHeartbeats 1000000 in
/-- The third input's array, as the region finds it: the flag's column beside the column of flag times gathered prior. -/
private theorem V_main_v15 (c : Dev nD) : (V m c main_v15 : S65536x2.Idx → EReal)
    = concatenate S65536x2 1 [⟨S65536x1, broadcastInDim S65536x1 ![0] bcast_S65536_S65536x1_0 (posV (argL m c))⟩,
        ⟨S65536x1, broadcastInDim S65536x1 ![0] bcast_S65536_S65536x1_0 (mulf (posV (argL m c)) (gathV (argL m c) (argP m c)))⟩]
        concatenates_S65536x1_S65536x1_S65536x2_d1 := by
  dsimp only [Gen.V, Gen.V0]
  simp only [Gen.hostOps0, Gen.hostOps0_1, Gen.hostOps0_2, List.flatten_cons, List.flatten_nil, List.append_nil,
    List.cons_append, List.nil_append]
  after_results
  rfl

/-- Entry `(r, k)` of block `t` of the two columns is the array's entry `(1024 t + r, k)`. -/
private theorem sblk_read (c : Dev nD) (t : Fin cfg0.N) (r : Fin 1024) (k : Fin 2) :
    sblk m c t (ix2 r k) = (V m c main_v15 : S65536x2.Idx → EReal) (ix2 (gRow t r) k) := by
  have hi := (by decide +kernel : ∀ t : Fin grid0.N, win0_2.index t (0 : Fin 2) = t.val ∧ win0_2.index t (1 : Fin 2) = 0) t
  unfold sblk iblk
  rw [View.read_apply]
  show V m c main_v15 _ = V m c main_v15 _
  congr 1
  funext a
  apply Fin.ext
  match a with
  | ⟨0, _⟩ => show win0_2.index t 0 * 1024 + 1 * r.val = 1024 * t.val + r.val; rw [hi.1]; omega
  | ⟨1, _⟩ => show win0_2.index t 1 * 2 + 1 * k.val = k.val; rw [hi.2]; omega

/-- A vector laid as a column reads, at row `n`, the vector at `n`. -/
private theorem col_apply {α : Type} (v : S65536.Idx → α) (n : Fin 65536) :
    broadcastInDim S65536x1 ![0] bcast_S65536_S65536x1_0 v (ix2 n (0 : Fin 1)) = v (ix1 n) :=
  broadcastInDim_apply ![0] _ v (ix2 n (0 : Fin 1)) (ix1 n) (fun a => by
    match a with
    | ⟨0, _⟩ => rfl)

/-- The side block's first column is the positive flag … -/
theorem sblk_at0 (c : Dev nD) (t : Fin cfg0.N) (r : Fin 1024) :
    sblk m c t (ix2 r (0 : Fin 2)) = Cert.Spec.posf (Cert.Spec.labAt (argL m c) (gRow t r)) := by
  rw [sblk_read, V_main_v15]
  rw [concatenate_pair_apply_left (t := S65536x2) (s₁ := S65536x1) (s₂ := S65536x1) (1 : Fin 2) _ _ _
    (ix2 (gRow t r) (0 : Fin 2)) rfl (ix2 (gRow t r) (0 : Fin 1)) (fun b => by
    match b with
    | ⟨0, _⟩ => rfl
    | ⟨1, _⟩ => rfl)]
  rw [col_apply]
  rfl

/-- A start index that is not negative has nothing added to it. -/
private theorem wrap_of_nonneg (s : BitVec 32) (h : 0 ≤ s.toInt) :
    Scalar.select (IntOp.cmpi .slt s 0#32) (IntOp.addi s 1000#32) s = s := by
  have h0 : (0#32 : BitVec 32).toInt = 0 := by decide
  have hs : s.slt 0#32 = false := by
    simp only [BitVec.slt, h0, decide_eq_false_iff_not, not_lt]; exact h
  unfold Scalar.select IntOp.cmpi
  simp only [hs]
  exact if_neg (by decide)

/-- So the start index of row `n` is its clipped label. -/
private theorem startV_apply (l : IVec S65536 32) (n : Fin 65536) : startV l (ix1 n) = Cert.Spec.safeLab (l (ix1 n)) :=
  wrap_of_nonneg _ (Cert.Spec.safeLab_bounds _).1

/-- The gather reads the table at the start index read signed and clamped into `[0, 999]`; the clipped label is
    already there, so row `n` reads the table at its clipped label. -/
private theorem gathV_apply (l : IVec S65536 32) (p : FVec Ideal S1000 .f32) (n : Fin 65536) :
    gathV l p (ix1 n) = p (ix1 (Cert.Spec.labIdx (l (ix1 n)))) := by
  have e : ix1 n = Shape.Idx.ofFin n := Shape.Idx.eq_ofFin (ix1 n)
  have e2 : (StableHlo.Predicate.ixP n : S65536x1.Idx) = ix2 n (0 : Fin 1) := by
    funext a
    match a with
    | ⟨0, _⟩ => rfl
    | ⟨1, _⟩ => rfl
  have hidx : broadcastInDim S65536x1 ![0] bcast_S65536_S65536x1_0 (startV l) (StableHlo.Predicate.ixP n)
      = Cert.Spec.safeLab (l (ix1 n)) :=
    (congrArg _ e2).trans ((col_apply _ n).trans (startV_apply l n))
  show Host.gather gather_S1000_S65536x1_S65536_n_0_n_n_0_1_1 p _ (ix1 n) = _
  rw [e, StableHlo.Predicate.gather_take gather_S1000_S65536x1_S65536_n_0_n_n_0_1_1 rfl rfl rfl rfl p _ n (by decide), ← e]
  refine congrArg p ?_
  funext a
  match a with
  | ⟨0, _⟩ =>
    apply Fin.ext
    show min (broadcastInDim S65536x1 ![0] bcast_S65536_S65536x1_0 (startV l) (StableHlo.Predicate.ixP n)).toInt.toNat (1000 - 1)
      = (Cert.Spec.safeLab (l (ix1 n))).toNat
    rw [hidx, Cert.Spec.safeLab_toInt]
    have := Cert.Spec.safeLab_toNat_le (l (ix1 n))
    simp only [Int.toNat_natCast]
    omega

/-- … and its second the flag times the prior at the clipped label. -/
theorem sblk_at1 (c : Dev nD) (t : Fin cfg0.N) (r : Fin 1024) :
    sblk m c t (ix2 r (1 : Fin 2))
      = Cert.Spec.posf (Cert.Spec.labAt (argL m c) (gRow t r)) * Cert.Spec.priAt (argL m c) (argP m c) (gRow t r) := by
  rw [sblk_read, V_main_v15]
  rw [concatenate_pair_apply_right (t := S65536x2) (s₁ := S65536x1) (s₂ := S65536x1) (1 : Fin 2) _ _ _
    (ix2 (gRow t r) (1 : Fin 2)) rfl rfl (ix2 (gRow t r) (0 : Fin 1))
    (fun b hb => by
      match b with
      | ⟨0, _⟩ => rfl
      | ⟨1, _⟩ => exact absurd rfl hb)
    rfl]
  rw [col_apply, mulf_apply, gathV_apply]
  rfl

end Cert.KernelIdeal.KValue

end
-- ==== Proof.KPayload.lean ====
/-
  One row of the body's arithmetic, over any staged blocks.

  Within row `r` of the block the body takes the row's maximum `M` and softmax denominator `S`; picks the logit at the
  row's label by a one-hot sum over the 1000 columns (when the label word is a column number, exactly one column is
  hit and the sum is the logit there); and forms the row's three terms from `M`, `log S`, that logit and the row's two
  side entries.
-/
import proofs.«409709_j23218593202209_2_alg».proof.Proof.Gen.KernelIdeal.Skeleton
import proofs.«409709_j23218593202209_2_alg».proof.Proof.Spec
import Idealize.ShloMosaic.Lib.ValueLayout
import Idealize.ShloMosaic.Lib.Pipeline.Value
import Idealize.ShloMosaic.PureOps.Ideal.Laws

noncomputable section

namespace Cert.KernelIdeal.KValue

open Idealize.ShloMosaic Idealize.ShloMosaic.TcCoe Idealize.SL.Sem Idealize.ShloMosaic.ValueIdx
open Cert.KernelIdeal Cert.KernelIdeal.Gen

/-- Row `r` of a block of logits. -/
def brow (x0 : Vec Ideal S1024x1000 .f32) (r : Fin 1024) : Cert.Spec.Row := fun k => x0 (ix2 r k)

section Layout
variable {α : Type}

/-- An `[a]` array cast to the column `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index the lane reduction inserts column `k` into row `r` at is `(r, k)`. -/
private theorem lift_row (r : Fin 1024) (k : Fin 1000) :
    reduces_S1024x1000_S1024.lift (ix1 r) k = ix2 r k := by
  funext a
  match a with
  | ⟨0, _⟩ => rfl
  | ⟨1, _⟩ => rfl

/-- The f32 pattern of `-∞` is the bottom of the extended reals. -/
private theorem ofBits_negInf_f32 : Ideal.ofBits .f32 0xFF800000#32 = ⊥ := by simp [Ideal.ofBits, Ideal.ieee]

/-- A lane sum of a `[1024, 1000]` block at row `r` is the sum of the row. -/
private theorem laneSum_at (src : FVec Ideal S1024x1000 .f32) (r : Fin 1024) :
    multiReduction (F := Ideal) .add [1] S1024 src 0x00000000#32 reduces_S1024x1000_S1024 (.inl rfl) rfl (ix1 r)
      = ∑ k : Fin 1000, src (ix2 r k) := by
  refine (Ideal.multiReduction_add_single src _ reduces_S1024x1000_S1024 _ _ (ix1 r)).trans ?_
  exact Finset.sum_congr rfl fun k _ => congrArg src (lift_row r k)

/-- A lane maximum of a `[1024, 1000]` block at row `r` is the row's maximum. -/
private theorem laneMax_at (src : FVec Ideal S1024x1000 .f32) (r : Fin 1024) :
    multiReduction (F := Ideal) .maximumf [1] S1024 src 0xFF800000#32 reduces_S1024x1000_S1024 (.inl rfl) rfl (ix1 r)
      = Cert.Spec.rowMax (brow src r) := by
  refine (Ideal.multiReduction_maximumf_single src _ reduces_S1024x1000_S1024 _ _ (ix1 r)).trans ?_
  unfold Cert.Spec.rowMax
  have e : (src ∘ reduces_S1024x1000_S1024.lift (ix1 r)) = brow src r := funext fun k => congrArg src (lift_row r k)
  rw [e]
  exact congrArg (fun b => (Finset.univ : Finset (Fin 1000)).fold max b (brow src r)) ofBits_negInf_f32

/-- The maximum column at row `r` is the row's maximum. -/
private theorem pay10_at (x0 : Vec Ideal S1024x1000 .f32) (r : Fin 1024) :
    k0_pay10 (F := Ideal) x0 (ix2 r (0 : Fin 1)) = Cert.Spec.rowMax (brow x0 r) := by
  unfold k0_pay10
  refine (shapeCast_a_a1_apply _ _ r 0).trans ?_
  exact laneMax_at x0 r

/-- The log-denominator column at row `r`: each logit of the row less the row's maximum, exponentiated, summed, and the
    logarithm of that. -/
private theorem pay11_at (x0 : Vec Ideal S1024x1000 .f32) (r : Fin 1024) :
    k0_pay11 (F := Ideal) x0 (ix2 r (0 : Fin 1)) = Ideal.log (Cert.Spec.rowSumExp (brow x0 r)) := by
  unfold k0_pay11
  show Ideal.log _ = _
  refine congrArg Ideal.log ?_
  refine (shapeCast_a_a1_apply _ _ r 0).trans ?_
  refine (laneSum_at _ r).trans ?_
  unfold Cert.Spec.rowSumExp
  refine Finset.sum_congr rfl fun k _ => ?_
  show Ideal.exp (x0 (ix2 r k) - _) = _
  rw [broadcastTo_a1_ab_apply, pay10_at]
  rfl

/-- The word of a column number is the clipped label exactly at the label's column. -/
private theorem ofNat_eq_safeLab_iff (k : Fin 1000) (l : BitVec 32) :
    BitVec.ofNat 32 k.val = Cert.Spec.safeLab l ↔ k = Cert.Spec.labIdx l := by
  constructor
  · intro h
    refine Fin.ext ?_
    have h' := congrArg BitVec.toNat h
    rw [BitVec.toNat_ofNat, Nat.mod_eq_of_lt (by have := k.isLt; omega)] at h'
    exact h'
  · intro h
    subst h
    refine BitVec.eq_of_toNat_eq ?_
    rw [BitVec.toNat_ofNat]
    exact Nat.mod_eq_of_lt (by have := Cert.Spec.safeLab_toNat_le l; show (Cert.Spec.safeLab l).toNat < 2 ^ 32; omega)

/-- One summand of the one-hot pick: the logit at the label's column, zero elsewhere. -/
private theorem pick_term (v : EReal) (k : Fin 1000) (l : BitVec 32) :
    Scalar.select (IntOp.cmpi .eq (BitVec.ofNat 32 k.val) (Cert.Spec.safeLab l)) v (0 : EReal)
      = if k = Cert.Spec.labIdx l then v else 0 := by
  by_cases hk : k = Cert.Spec.labIdx l
  · rw [if_pos hk]
    have e : IntOp.cmpi .eq (BitVec.ofNat 32 k.val) (Cert.Spec.safeLab l) = 1#1 := by
      simp only [IntOp.cmpi, (ofNat_eq_safeLab_iff k l).mpr hk, beq_self_eq_true, BitVec.ofBool_true]; rfl
    rw [e]; exact select_one _ _
  · rw [if_neg hk]
    have e : IntOp.cmpi .eq (BitVec.ofNat 32 k.val) (Cert.Spec.safeLab l) = 0#1 := by
      have hne : ¬ BitVec.ofNat 32 k.val = Cert.Spec.safeLab l := fun h => hk ((ofNat_eq_safeLab_iff k l).mp h)
      simp only [IntOp.cmpi, beq_eq_false_iff_ne.mpr hne, BitVec.ofBool_false]; rfl
    rw [e]; exact select_zero _ _

/-- The one-hot pick at row `r`: when the row's label word is the clipped label, the logit at the label's column. -/
private theorem pay12_at (x0 : Vec Ideal S1024x1000 .f32) (x1 : Vec Ideal S1024x1 .i32) (r : Fin 1024) (l : BitVec 32)
    (hl : x1 (ix2 r (0 : Fin 1)) = Cert.Spec.safeLab l) :
    k0_pay12 (F := Ideal) x0 x1 (ix2 r (0 : Fin 1)) = brow x0 r (Cert.Spec.labIdx l) := by
  unfold k0_pay12
  refine (shapeCast_a_a1_apply _ _ r 0).trans ?_
  refine (laneSum_at _ r).trans ?_
  have hterm : ∀ k : Fin 1000,
      select (cmpi .eq (iota .tc S1024x1000 32 [1] iota_S1024x1000_d1_w32)
          (broadcastTo S1024x1000 (shapeCast S1024x1 x1 shapeCasts_S1024x1_S1024x1) broadcasts_S1024x1_S1024x1000))
        x0 (broadcast S1024x1000 (Scalar.ofBits (F := Ideal) .f32 0x00000000#32)) (ix2 r k)
        = if k = Cert.Spec.labIdx l then brow x0 r k else 0 := by
    intro k
    rw [shapeCast_self]
    show Scalar.select (IntOp.cmpi .eq (iota .tc S1024x1000 32 [1] iota_S1024x1000_d1_w32 (ix2 r k))
        (broadcastTo S1024x1000 x1 broadcasts_S1024x1_S1024x1000 (ix2 r k))) (x0 (ix2 r k)) (Ideal.ofBits .f32 0x00000000#32) = _
    rw [iota_single_apply, broadcastTo_a1_ab_apply, hl, Ideal.ofBits_zero_f32]
    exact pick_term _ k l
  refine (Finset.sum_congr rfl fun k _ => hterm k).trans ?_
  rw [Finset.sum_ite_eq' Finset.univ (Cert.Spec.labIdx l) (brow x0 r)]
  exact if_pos (Finset.mem_univ _)

/-- The side block's second column at row `r`. -/
private theorem side1_at (x2 : Vec Ideal S1024x2 .f32) (r : Fin 1024) :
    extractStridedSlice S1024x1 ![0, 1] (k0_pay13 (F := Ideal) x2) slices_S1024x2_o0_1_S1024x1 (ix2 r (0 : Fin 1))
      = x2 (ix2 r (1 : Fin 2)) := by
  unfold k0_pay13
  rw [shapeCast_self]
  refine extractStridedSlice_apply _ _ _ _ (ix2 r (1 : Fin 2)) ?_
  intro a
  match a with
  | ⟨0, _⟩ => exact (Nat.zero_add _).symm
  | ⟨1, _⟩ => rfl

/-- The side block's first column at row `r`. -/
private theorem flag_at (x2 : Vec Ideal S1024x2 .f32) (r : Fin 1024) :
    k0_pay14 (F := Ideal) x2 (ix2 r (0 : Fin 1)) = x2 (ix2 r (0 : Fin 2)) := by
  unfold k0_pay14 k0_pay13
  rw [shapeCast_self]
  refine extractStridedSlice_apply _ _ _ _ (ix2 r (0 : Fin 2)) ?_
  intro a
  match a with
  | ⟨0, _⟩ => exact (Nat.zero_add _).symm
  | ⟨1, _⟩ => rfl

/-- The weighted `-log (1 - p + 0.01)` term of row `r`, when the row's label word is the clipped label `safeLab l`. -/
theorem pay15_at (x0 : Vec Ideal S1024x1000 .f32) (x1 : Vec Ideal S1024x1 .i32) (x2 : Vec Ideal S1024x2 .f32)
    (r : Fin 1024) (l : BitVec 32) (hl : x1 (ix2 r (0 : Fin 1)) = Cert.Spec.safeLab l) :
    k0_pay15 (F := Ideal) x0 x1 x2 (ix2 r (0 : Fin 1))
      = Cert.Spec.puK (brow x0 r) (brow x0 r (Cert.Spec.labIdx l)) * x2 (ix2 r (1 : Fin 2)) := by
  unfold k0_pay15
  refine (mulf_apply _ _ _).trans ?_
  rw [side1_at]
  refine congrArg (fun t : EReal => t * x2 (ix2 r (1 : Fin 2))) ?_
  refine (subf_apply _ _ _).trans ?_
  unfold Cert.Spec.puK
  refine congrArg₂ (fun s t : EReal => s - t) Ideal.ofBits_zero_f32 ?_
  refine congrArg Ideal.log ?_
  refine (addf_apply _ _ _).trans ?_
  unfold Cert.Spec.c01
  refine congrArg (fun t : EReal => t + Ideal.ofBits .f32 0x3C23D70A#32) ?_
  refine (subf_apply _ _ _).trans ?_
  refine congrArg₂ (fun s t : EReal => s - t) Ideal.ofBits_one_f32 ?_
  unfold Cert.Spec.pK
  refine congrArg Ideal.exp ?_
  refine (subf_apply _ _ _).trans ?_
  rw [pay11_at]
  refine congrArg (fun t : EReal => t - Ideal.log (Cert.Spec.rowSumExp (brow x0 r))) ?_
  refine (subf_apply _ _ _).trans ?_
  rw [pay12_at x0 x1 r l hl, pay10_at]

/-- The masked cross entropy of row `r`. -/
theorem pay16_at (x0 : Vec Ideal S1024x1000 .f32) (x1 : Vec Ideal S1024x1 .i32) (x2 : Vec Ideal S1024x2 .f32)
    (r : Fin 1024) (l : BitVec 32) (hl : x1 (ix2 r (0 : Fin 1)) = Cert.Spec.safeLab l) :
    k0_pay16 (F := Ideal) x0 x1 x2 (ix2 r (0 : Fin 1))
      = Cert.Spec.ceK (brow x0 r) (brow x0 r (Cert.Spec.labIdx l)) * x2 (ix2 r (0 : Fin 2)) := by
  unfold k0_pay16
  refine (mulf_apply _ _ _).trans ?_
  rw [flag_at]
  refine congrArg (fun t : EReal => t * x2 (ix2 r (0 : Fin 2))) ?_
  refine (subf_apply _ _ _).trans ?_
  rw [pay12_at x0 x1 r l hl]
  unfold Cert.Spec.ceK
  refine congrArg (fun t : EReal => t - brow x0 r (Cert.Spec.labIdx l)) ?_
  refine (addf_apply _ _ _).trans ?_
  rw [pay10_at, pay11_at]

/-- The positive flag of row `r`: the side block's first column. -/
theorem pay14_at (x2 : Vec Ideal S1024x2 .f32) (r : Fin 1024) :
    k0_pay14 (F := Ideal) x2 (ix2 r (0 : Fin 1)) = x2 (ix2 r (0 : Fin 2)) := by
  exact flag_at x2 r

end Cert.KernelIdeal.KValue

end
-- ==== Proof.KRows.lean ====
/-
  One row of one block: the three per-row terms the kernel's body computes are the loss's per-row terms of the
  argument arrays — the body's arithmetic over the staged blocks, with the blocks read off the arrays.
-/
import proofs.«409709_j23218593202209_2_alg».proof.Proof.KBlocks
import proofs.«409709_j23218593202209_2_alg».proof.Proof.KPayload

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- Row `r` of the logits' block at point `t` is row `1024 t + r` of the logits. -/
theorem brow_xblk (c : Dev nD) (t : Fin cfg0.N) (r : Fin 1024) :
    brow (xblk m c t) r = Cert.Spec.xrow (argX m c) (gRow t r) :=
  funext fun k => xblk_at m c t r k

theorem pu_row (c : Dev nD) (t : Fin cfg0.N) (r : Fin 1024) :
    k0_pay15 (F := Ideal) (xblk m c t) (lblk m c t) (sblk m c t) (ix2 r (0 : Fin 1))
      = Cert.Spec.termPuK (Cert.Spec.xrow (argX m c) (gRow t r)) (Cert.Spec.labAt (argL m c) (gRow t r))
          (Cert.Spec.priAt (argL m c) (argP m c) (gRow t r)) := by
  rw [pay15_at _ _ _ r _ (lblk_at m c t r), brow_xblk, sblk_at1, Cert.Spec.termPuK]

theorem ce_row (c : Dev nD) (t : Fin cfg0.N) (r : Fin 1024) :
    k0_pay16 (F := Ideal) (xblk m c t) (lblk m c t) (sblk m c t) (ix2 r (0 : Fin 1))
      = Cert.Spec.termCeK (Cert.Spec.xrow (argX m c) (gRow t r)) (Cert.Spec.labAt (argL m c) (gRow t r)) := by
  rw [pay16_at _ _ _ r _ (lblk_at m c t r), brow_xblk, sblk_at0, Cert.Spec.termCeK]

theorem pos_row (c : Dev nD) (t : Fin cfg0.N) (r : Fin 1024) :
    k0_pay14 (F := Ideal) (sblk m c t) (ix2 r (0 : Fin 1)) = Cert.Spec.posf (Cert.Spec.labAt (argL m c) (gRow t r)) := by
  rw [pay14_at, sblk_at0]

end Cert.KernelIdeal.KValue

end
-- ==== Proof.SumBlocks.lean ====
/-
  Sums of an extended-real sequence over consecutive stretches of the naturals.

  A sum taken block by block -- a running total that starts from zero at the first block of a stretch and takes in
  one block of `L` consecutive terms at a time -- is the sum over the whole stretch, and a sum over `Fin n` is the sum
  over `Finset.range n`.  Addition of extended reals is commutative and associative, so none of this needs the terms
  to be finite.
-/
import Mathlib.Algebra.BigOperators.Intervals
import Mathlib.Algebra.BigOperators.Fin
import Mathlib.Data.EReal.Basic

namespace Cert.SumBlocks

open Finset

/-- The block of `L` consecutive terms starting at `a`, as a sum over `Fin L`, is the sum over the stretch `[a, a + L)`. -/
theorem sum_fin_block (f : ℕ → EReal) (a L : ℕ) :
    (∑ r : Fin L, f (a + r.val)) = ∑ n ∈ Ico a (a + L), f n := by
  rw [Fin.sum_univ_eq_sum_range (fun r => f (a + r)) L, Finset.sum_Ico_eq_sum_range]
  simp only [Nat.add_sub_cancel_left]

/-- A stretch followed by the next block of `L` terms is the longer stretch. -/
theorem sum_Ico_add_block (f : ℕ → EReal) (a b L : ℕ) (hab : a ≤ b) :
    (∑ n ∈ Ico a b, f n) + (∑ r : Fin L, f (b + r.val)) = ∑ n ∈ Ico a (b + L), f n := by
  rw [sum_fin_block, Finset.sum_Ico_consecutive f hab (Nat.le_add_right b L)]

/-- Two consecutive stretches make one. -/
theorem sum_Ico_add_Ico (f : ℕ → EReal) (a b c : ℕ) (hab : a ≤ b) (hbc : b ≤ c) :
    (∑ n ∈ Ico a b, f n) + (∑ n ∈ Ico b c, f n) = ∑ n ∈ Ico a c, f n :=
  Finset.sum_Ico_consecutive f hab hbc

/-- Consecutive blocks of `L` terms, block `s` the stretch `[L s, L s + L)`: the blocks `a ≤ s < b` added are the stretch
    `[L a, L b)`. -/
theorem sum_Ico_blocks (f : ℕ → EReal) (L a b : ℕ) (hab : a ≤ b) :
    (∑ s ∈ Ico a b, ∑ n ∈ Ico (L * s) (L * s + L), f n) = ∑ n ∈ Ico (L * a) (L * b), f n := by
  induction b, hab using Nat.le_induction with
  | base => simp
  | succ b hab ih =>
    rw [Finset.sum_Ico_succ_top hab, ih, Nat.mul_succ]
    exact Finset.sum_Ico_consecutive f (Nat.mul_le_mul_left L hab) (Nat.le_add_right _ _)

/-- A sum over `Fin n` of a sequence read at the values is the sum over the stretch `[0, n)`. -/
theorem sum_fin_eq_Ico (f : ℕ → EReal) (n : ℕ) : (∑ k : Fin n, f k.val) = ∑ k ∈ Ico 0 n, f k := by
  rw [Fin.sum_univ_eq_sum_range (fun k => f k) n, Nat.Ico_zero_eq_range]

end Cert.SumBlocks
-- ==== Proof.KValue.lean ====
/-
  The kernel program's run, read as functions of the argument arrays.

  The two cores' totals of a column, added, are the column's sum over all 64 row blocks; a block's column sum is the
  sum of the per-row terms over its 1024 rows, and row `r` of block `s` is row `1024 s + r` of the arrays; so each
  total is the sum of the loss's per-row terms over the 65536 rows.
-/
import proofs.«409709_j23218593202209_2_alg».proof.Proof.KFinal
import proofs.«409709_j23218593202209_2_alg».proof.Proof.KRows
import proofs.«409709_j23218593202209_2_alg».proof.Proof.SumBlocks

noncomputable section

namespace Cert.KernelIdeal.KValue

open Idealize.ShloMosaic Idealize.ShloMosaic.TcCoe Idealize.SL.Sem Idealize.ShloMosaic.ValueIdx
open Cert.KernelIdeal Cert.KernelIdeal.Gen Finset

variable (m : (ℓ : Loc nD τ sig) → Buf (Elt Ideal) ℓ) (ρ : Dev nD → PrngReg)

/-- The per-row terms as sequences over the naturals (zero past the last row). -/
def rowPu (c : Dev nD) (n : ℕ) : EReal :=
  if h : n < 65536 then Cert.Spec.termPuK (Cert.Spec.xrow (argX m c) ⟨n, h⟩) (Cert.Spec.labAt (argL m c) ⟨n, h⟩)
    (Cert.Spec.priAt (argL m c) (argP m c) ⟨n, h⟩) else 0
def rowCe (c : Dev nD) (n : ℕ) : EReal :=
  if h : n < 65536 then Cert.Spec.termCeK (Cert.Spec.xrow (argX m c) ⟨n, h⟩) (Cert.Spec.labAt (argL m c) ⟨n, h⟩) else 0
def rowPos (c : Dev nD) (n : ℕ) : EReal :=
  if h : n < 65536 then Cert.Spec.posf (Cert.Spec.labAt (argL m c) ⟨n, h⟩) else 0

theorem N64 : cfg0.N = 64 := N_0

/-- Row `r` of block `s` as a natural number is below 65536. -/
theorem row_lt (s : ℕ) (hs : s < 64) (r : Fin 1024) : 1024 * s + r.val < 65536 := by have := r.isLt; omega

/-- A block's column sum is the per-row terms added over the block's stretch of rows. -/
theorem blkPu_eq (c : Dev nD) (s : ℕ) (hs : s < 64) :
    blkPu m c s = ∑ n ∈ Ico (1024 * s) (1024 * s + 1024), rowPu m c n := by
  have hs' : s < cfg0.N := by rw [N64]; exact hs
  rw [← Cert.SumBlocks.sum_fin_block, blkPu, dif_pos hs']
  refine Finset.sum_congr rfl fun r _ => ?_
  rw [pu_row m c ⟨s, hs'⟩ r, rowPu, dif_pos (row_lt s hs r)]
  rfl

theorem blkCe_eq (c : Dev nD) (s : ℕ) (hs : s < 64) :
    blkCe m c s = ∑ n ∈ Ico (1024 * s) (1024 * s + 1024), rowCe m c n := by
  have hs' : s < cfg0.N := by rw [N64]; exact hs
  rw [← Cert.SumBlocks.sum_fin_block, blkCe, dif_pos hs']
  refine Finset.sum_congr rfl fun r _ => ?_
  rw [ce_row m c ⟨s, hs'⟩ r, rowCe, dif_pos (row_lt s hs r)]
  rfl

theorem blkPos_eq (c : Dev nD) (s : ℕ) (hs : s < 64) :
    blkPos m c s = ∑ n ∈ Ico (1024 * s) (1024 * s + 1024), rowPos m c n := by
  have hs' : s < cfg0.N := by rw [N64]; exact hs
  rw [← Cert.SumBlocks.sum_fin_block, blkPos, dif_pos hs']
  refine Finset.sum_congr rfl fun r _ => ?_
  rw [pos_row m c ⟨s, hs'⟩ r, rowPos, dif_pos (row_lt s hs r)]
  rfl

/-- The two cores' totals of a column whose blocks are stretches of a row sequence are that sequence's sum over all
    rows. -/
theorem two_cores (blk row : ℕ → EReal)
    (hblk : ∀ s, s < 64 → blk s = ∑ n ∈ Ico (1024 * s) (1024 * s + 1024), row n) :
    (∑ k : Fin 2, ∑ s ∈ Ico (32 * k.val) (32 * k.val + 32), blk s) = ∑ n : Fin 65536, row n.val := by
  rw [Fin.sum_univ_two]
  show (∑ s ∈ Ico (32 * 0) (32 * 0 + 32), blk s) + (∑ s ∈ Ico (32 * 1) (32 * 1 + 32), blk s) = _
  rw [Cert.SumBlocks.sum_Ico_add_Ico blk (32 * 0) (32 * 0 + 32) (32 * 1 + 32) (by omega) (by omega),
    Cert.SumBlocks.sum_fin_eq_Ico row 65536,
    ← Cert.SumBlocks.sum_Ico_blocks row 1024 0 64 (by omega)]
  refine Finset.sum_congr rfl fun s hs => hblk s ?_
  have := (Finset.mem_Ico.mp hs).2
  omega

theorem sumPu_eq (c : Dev nD) : (∑ k : Fin 2, corePu m c k) = Cert.Spec.sumPuK (argX m c) (argL m c) (argP m c) := by
  unfold corePu
  rw [two_cores (blkPu m c) (rowPu m c) (blkPu_eq m c), Cert.Spec.sumPuK]
  refine Finset.sum_congr rfl fun n _ => ?_
  rw [rowPu, dif_pos n.isLt]

theorem sumCe_eq (c : Dev nD) : (∑ k : Fin 2, coreCe m c k) = Cert.Spec.sumCeK (argX m c) (argL m c) := by
  unfold coreCe
  rw [two_cores (blkCe m c) (rowCe m c) (blkCe_eq m c), Cert.Spec.sumCeK]
  refine Finset.sum_congr rfl fun n _ => ?_
  rw [rowCe, dif_pos n.isLt]

theorem sumPos_eq (c : Dev nD) : (∑ k : Fin 2, corePos m c k) = Cert.Spec.sumPos (argL m c) := by
  unfold corePos
  rw [two_cores (blkPos m c) (rowPos m c) (blkPos_eq m c), Cert.Spec.sumPos]
  refine Finset.sum_congr rfl fun n _ => ?_
  rw [rowPos, dif_pos n.isLt]

/-- Every weakly fair execution of the kernel program ends with its two results at the kernel's forms of the loss of
    the argument arrays, the arguments unchanged. -/
theorem run : θ_run defs (onTc (τ := τ) (main (F := Ideal))) ⟨m, fun _ => 0, ρ⟩ fun r => ∀ c : Dev nD,
      r.2.mem ((c.tc : Thread nD τ).loc main_v30) = (fun _ => Cert.Spec.objK (argX m c) (argL m c) (argP m c))
      ∧ r.2.mem ((c.tc : Thread nD τ).loc main_v31) = (fun _ => Cert.Spec.crossK (argX m c) (argL m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rw [sumPu_eq, sumPos_eq]; rfl),
    (h c).2.1.trans (by rw [sumCe_eq, sumPos_eq]; rfl), (h c).2.2⟩) (run_cores m ρ)

end Cert.KernelIdeal.KValue

end
-- ==== Proof.LibPickGather.lean ====
/-
  A gather of single entries of a matrix by (row, column) pairs, read at an index.

  jnp's `x[rows, cols]` of a matrix `x : [R, C]` at two index vectors of length `n` lowers to a `stablehlo.gather`
  whose start indices are the `[n, 2]` array of (row, column) pairs: both operand axes are collapsed and start-indexed
  (slice sizes `[1, 1]`), and the result has the one batch axis.  Result element `k` is then the matrix entry at
  `(r, q)`, where `r` and `q` are the `k`-th pair's components read as signed integers and clamped into `[0, R - 1]`
  and `[0, C - 1]`: the gather never reads outside the matrix.
-/
import Idealize.ShloMosaic.Lib.ValueIdx

noncomputable section

namespace Idealize.ShloMosaic.PickGather

open Idealize.ShloMosaic Idealize.ShloMosaic.ValueIdx

variable {α : Type}

/-- The dimension numbers of a gather of single entries from a matrix `[R, C]` by an `[n, 2]` array of (row, column)
    pairs into `[n]`; their conditions `wf` are decided on a program's literal shapes. -/
abbrev pickDims (R C n : Nat)
    (wf : GatherDims.WF ⟨2, ![R, C]⟩ ⟨2, ![n, 2]⟩ ⟨1, ![n]⟩ [] [0, 1] [] [0, 1] [] 1 ![1, 1]) :
    GatherDims ⟨2, ![R, C]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

/-- THE GATHER READ AT `k`: the matrix at row `idx[k, 0]` and column `idx[k, 1]`, each read signed and clamped into
    its axis.  On both axes the start is the clamped component and nothing is added to it: the axes are collapsed, and
    there is no batching axis. -/
theorem gather_pick_apply {R C n w : Nat} (hR : 0 < R) (hC : 0 < C)
    (wf : GatherDims.WF ⟨2, ![R, C]⟩ ⟨2, ![n, 2]⟩ ⟨1, ![n]⟩ [] [0, 1] [] [0, 1] [] 1 ![1, 1])
    (x : (⟨2, ![R, C]⟩ : Shape).Idx → α) (idx : IVec ⟨2, ![n, 2]⟩ w) (k : Fin n) :
    Host.gather (pickDims R C n wf) x idx (ix1 k)
      = x (ix2 ⟨min (idx (ix2 k (0 : Fin 2))).toInt.toNat (R - 1), by omega⟩
            ⟨min (idx (ix2 k (1 : Fin 2))).toInt.toNat (C - 1), by omega⟩) := by
  unfold Host.gather
  congr 1
  funext a
  refine Fin.ext ?_
  match a with
  | ⟨0, _⟩ =>
    show (pickDims R C n wf).start (ix1 k) idx 0 + (pickDims R C n wf).batchCoord (ix1 k) 0
        + (pickDims R C n wf).offCoord (ix1 k) 0 = _
    rw [GatherDims.batchCoord_eq_zero _ _ _ List.not_mem_nil,
      GatherDims.offCoord_eq_zero _ _ _ (fun h => ((GatherDims.mem_sKept _ _).mp h).1 (show (0 : Fin 2) ∈ ([0, 1] : List (Fin 2)) from List.mem_cons_self))]
    simp only [Nat.add_zero]
    unfold GatherDims.start
    rw [dif_pos (show (0 : Fin 2) ∈ (pickDims R C n wf).startIndexMap from (show (0 : Fin 2) ∈ ([0, 1] : List (Fin 2)) from List.mem_cons_self))]
    have hsi : (pickDims R C n wf).siIdx (ix1 k) ⟨List.idxOf (0 : Fin 2) (pickDims R C n wf).startIndexMap,
        List.idxOf_lt_length_iff.2 (show (0 : Fin 2) ∈ ([0, 1] : List (Fin 2)) from List.mem_cons_self)⟩ = ix2 k (0 : Fin 2) := by
      funext b; refine Fin.ext ?_
      match b with
      | ⟨0, _⟩ => rfl
      | ⟨1, _⟩ => rfl
    rw [hsi]
    rfl
  | ⟨1, _⟩ =>
    show (pickDims R C n wf).start (ix1 k) idx 1 + (pickDims R C n wf).batchCoord (ix1 k) 1
        + (pickDims R C n wf).offCoord (ix1 k) 1 = _
    rw [GatherDims.batchCoord_eq_zero _ _ _ List.not_mem_nil,
      GatherDims.offCoord_eq_zero _ _ _ (fun h => ((GatherDims.mem_sKept _ _).mp h).1 (show (1 : Fin 2) ∈ ([0, 1] : List (Fin 2)) from List.mem_cons_of_mem _ List.mem_cons_self))]
    simp only [Nat.add_zero]
    unfold GatherDims.start
    rw [dif_pos (show (1 : Fin 2) ∈ (pickDims R C n wf).startIndexMap from (show (1 : Fin 2) ∈ ([0, 1] : List (Fin 2)) from List.mem_cons_of_mem _ List.mem_cons_self))]
    have hsi : (pickDims R C n wf).siIdx (ix1 k) ⟨List.idxOf (1 : Fin 2) (pickDims R C n wf).startIndexMap,
        List.idxOf_lt_length_iff.2 (show (1 : Fin 2) ∈ ([0, 1] : List (Fin 2)) from List.mem_cons_of_mem _ List.mem_cons_self)⟩ = ix2 k (1 : Fin 2) := by
      funext b; refine Fin.ext ?_
      match b with
      | ⟨0, _⟩ => rfl
      | ⟨1, _⟩ => rfl
    rw [hsi]
    rfl

end Idealize.ShloMosaic.PickGather

end
-- ==== Proof.RefValue.lean ====
/-
  The reference's two results, read one operation at a time, are the loss's reference forms of the argument arrays.

  The softmax and the log-softmax are taken row by row over the row's maximum and denominator; the entry at (row,
  clipped label) is picked by a two-index gather whose start indices are in range (the row number from an iota, the
  label clipped), so its clamp changes nothing; the prior is gathered at the clipped label; `where` selects on the
  positive test; the count of positive rows is an integer sum of the test's 0/1 words, converted to a float.
-/
import proofs.«409709_j23218593202209_2_alg».proof.Proof.RefRead
import proofs.«409709_j23218593202209_2_alg».proof.Proof.Spec
import proofs.«409709_j23218593202209_2_alg».proof.Proof.LibPickGather
import Idealize.ShloMosaic.Lib.StableHlo.Predicate
import Idealize.ShloMosaic.Lib.ValueLayout

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.ReadP

/-! ### Facts that do not depend on the program's stages -/

/-- The word of negative infinity is the bottom of the extended reals. -/
theorem ofBits_neg_inf : Ideal.ofBits .f32 0xFF800000#32 = (⊥ : EReal) := by
  simp [Ideal.ofBits, Ideal.ieee]

/-- A sum over the indices of a vector is the sum over its positions. -/
theorem sum_idx1 {n : Nat} (f : (⟨1, ![n]⟩ : Shape).Idx → EReal) : ∑ j, f j = ∑ k : Fin n, f (ix1 k) := by
  refine Fintype.sum_equiv ⟨fun j => j 0, ix1, fun j => (eq_ix1 j).symm, fun _ => rfl⟩ _ _ (fun j => ?_)
  exact congrArg f (eq_ix1 j)

/-- Row `n` with column `k` put back is the entry (n, k). -/
theorem lift_row (h : S65536x1000.Reduces [1] S65536) (n : Fin 65536) (k : Fin (S65536x1000.size 1)) :
    h.lift (ix1 n) k = ix2 n (⟨k.val, k.isLt⟩ : Fin 1000) := by
  funext c; apply Fin.ext
  match c with
  | ⟨0, _⟩ => rfl
  | ⟨1, _⟩ => rfl

/-- From negative infinity, the maximum-reduce of the logits along the columns is, at row `n`, the row's maximum. -/
theorem reduce_max_row (x : FVec Ideal S65536x1000 .f32) (h' : S65536x1000.ReducesTo [1] S65536)
    (hu : 0 < S_.numel) (n : Fin 65536) :
    Host.reduce (FloatOps.maximumf (F := Ideal) (φ := .f32)) x (constant (F := Ideal) S_ .f32 0xFF800000#32) h' hu (ix1 n)
      = Cert.Spec.rowMax (Cert.Spec.xrow x n) := by
  have h : S65536x1000.Reduces [1] S65536 := by decide
  rw [Host.reduce_eq_fold_single (FloatOps.maximumf (F := Ideal) (φ := .f32)) x _ h' h hu]
  have hf : (x ∘ h.lift (ix1 n)) = Cert.Spec.xrow x n := funext fun k => congrArg x (lift_row h n k)
  rw [hf]
  show Finset.fold max (Ideal.ofBits .f32 0xFF800000#32) (Cert.Spec.xrow x n) Finset.univ = _
  rw [ofBits_neg_inf]
  rfl

/-- The positions of a vector, as its indices. -/
def posEquiv (n : Nat) : Fin n ≃ (⟨1, ![n]⟩ : Shape).Idx := ⟨ix1, fun j => j 0, fun _ => rfl, fun j => (eq_ix1 j).symm⟩

/-- The word-sum of the widened positive bits over all rows is the count of the specification. -/
theorem reduce_count (mask : IVec S65536 1) (hw : 1 < 32) (h' : S65536.ReducesTo [0] S_) (hu : 0 < S_.numel) (i : S_.Idx) :
    Host.reduce IntOp.addi (extui 32 mask hw) (constantI S_ 32 0#32) h' hu i
      = (Finset.univ : Finset (Fin 65536)).fold IntOp.addi 0#32 (fun n => (mask (ix1 n)).setWidth 32) := by
  rw [Host.reduce_eq_fold]
  rw [Finset.filter_true_of_mem (fun j _ => funext fun b => b.elim0)]
  rw [← Finset.map_univ_equiv (posEquiv 65536), Finset.fold_map]
  rfl

theorem ofFin_eq_ix1 {n : Nat} (k : Fin n) : Shape.Idx.ofFin k = ix1 k := by
  funext d; match d with | ⟨0, _⟩ => rfl

theorem ixP_eq_ix2 {n : Nat} (p : Fin n) : StableHlo.Predicate.ixP p = ix2 p (0 : Fin 1) := by
  funext d; match d with | ⟨0, _⟩ => rfl | ⟨1, _⟩ => rfl

/-- A column of the start-index array: the first piece at column 0 … -/
theorem concat_col0 {α : Type} (a b : S65536x1.Idx → α) (h : Shape.Concatenates [S65536x1, S65536x1] S65536x2 1) (n : Fin 65536) :
    concatenate S65536x2 1 [⟨S65536x1, a⟩, ⟨S65536x1, b⟩] h (ix2 n (0 : Fin 2)) = a (ix2 n (0 : Fin 1)) :=
  concatenate_pair_apply_left 1 a b h _ rfl _ (fun c => match c with | ⟨0, _⟩ => rfl | ⟨1, _⟩ => rfl)

/-- … and the second piece at column 1. -/
theorem concat_col1 {α : Type} (a b : S65536x1.Idx → α) (h : Shape.Concatenates [S65536x1, S65536x1] S65536x2 1) (n : Fin 65536) :
    concatenate S65536x2 1 [⟨S65536x1, a⟩, ⟨S65536x1, b⟩] h (ix2 n (1 : Fin 2)) = b (ix2 n (0 : Fin 1)) :=
  concatenate_pair_apply_right 1 a b h _ rfl rfl _
    (fun c hc => match c, hc with | ⟨0, _⟩, _ => rfl | ⟨1, _⟩, hc => absurd rfl hc) rfl

/-- The single-entry gather, with in-range start indices (the row number, a clipped label), reads the entry at
    (row, clipped label): neither clamp changes its component. -/
theorem pick_row {α : Type} (y : S65536x1000.Idx → α) (idx : IVec S65536x2 32) (n : Fin 65536) (l : BitVec 32)
    (h0 : idx (ix2 n (0 : Fin 2)) = BitVec.ofNat 32 n.val) (h1 : idx (ix2 n (1 : Fin 2)) = Cert.Spec.safeLab l) :
    Host.gather gather_S65536x1000_S65536x2_S65536_n_01_n_n_01_1_11 y idx (ix1 n) = y (ix2 n (Cert.Spec.labIdx l)) := by
  have e : gather_S65536x1000_S65536x2_S65536_n_01_n_n_01_1_11
      = PickGather.pickDims 65536 1000 65536 gather_S65536x1000_S65536x2_S65536_n_01_n_n_01_1_11_wf := rfl
  rw [e, PickGather.gather_pick_apply (by decide) (by decide)]
  have key : ∀ (a : Fin 65536) (b : Fin 1000), a.val = n.val → b.val = (Cert.Spec.labIdx l).val →
      y (ix2 a b) = y (ix2 n (Cert.Spec.labIdx l)) := by
    intro a b ha hb
    obtain rfl := Fin.ext ha
    obtain rfl := Fin.ext hb
    rfl
  refine key _ _ ?_ ?_
  · show min (idx (ix2 n (0 : Fin 2))).toInt.toNat (65536 - 1) = n.val
    rw [h0, StableHlo.Predicate.toInt_ofNat_small _ (by have := n.isLt; omega), Int.toNat_natCast]
    have := n.isLt; omega
  · show min (idx (ix2 n (1 : Fin 2))).toInt.toNat (1000 - 1) = (Cert.Spec.safeLab l).toNat
    rw [h1, Cert.Spec.safeLab_toInt, Int.toNat_natCast]
    have := Cert.Spec.safeLab_toNat_le l; omega

/-- The prior's gather at a clipped label reads the prior there. -/
theorem take_row {α : Type} (x : S1000.Idx → α) (idx : IVec S65536x1 32) (n : Fin 65536) (l : BitVec 32)
    (h0 : idx (ix2 n (0 : Fin 1)) = Cert.Spec.safeLab l) :
    Host.gather gather_S1000_S65536x1_S65536_n_0_n_n_0_1_1 x idx (ix1 n) = x (ix1 (Cert.Spec.labIdx l)) := by
  have g := StableHlo.Predicate.gather_take gather_S1000_S65536x1_S65536_n_0_n_n_0_1_1 rfl rfl rfl rfl x idx n (by decide)
  rw [ofFin_eq_ix1, ofFin_eq_ix1] at g
  rw [g]
  have h0' : idx (StableHlo.Predicate.ixP n) = Cert.Spec.safeLab l := by rw [ixP_eq_ix2]; exact h0
  congr 2
  apply Fin.ext
  show min (idx (StableHlo.Predicate.ixP n)).toInt.toNat (1000 - 1) = (Cert.Spec.safeLab l).toNat
  rw [h0', Cert.Spec.safeLab_toInt, Int.toNat_natCast]
  have := Cert.Spec.safeLab_toNat_le l; omega

/-- A select on "is negative" keeps a word that is not negative. -/
theorem select_slt_zero (s t : BitVec 32) (hs : 0 ≤ s.toInt) :
    Scalar.select (IntOp.cmpi .slt s 0#32) t s = s := by
  have hc : IntOp.cmpi .slt s 0#32 = 0#1 := by
    show BitVec.ofBool (s.slt 0#32) = 0#1
    have : s.slt 0#32 = false := by
      simp only [BitVec.slt, show (0#32 : BitVec 32).toInt = 0 from by decide, decide_eq_false_iff_not, not_lt]
      exact hs
    rw [this]; rfl
  rw [hc]
  exact select_zero _ _

/-- A row number read as a signed word is not negative. -/
theorem ofNat_row_nonneg (n : Fin 65536) : 0 ≤ (BitVec.ofNat 32 n.val).toInt := by
  rw [StableHlo.Predicate.toInt_ofNat_small _ (by have := n.isLt; omega)]
  exact Int.natCast_nonneg _

/-- A reshape of a scalar to one entry reads the scalar. -/
theorem shapeCast_scalar {α : Type} (v : S_.Idx → α) (h : S_.ShapeCasts S1) (i : S1.Idx) : shapeCast S1 v h i = v ix0 := by
  refine shapeCast_apply v h i ix0 ?_
  have h1 := (S_.rowMajor ix0).isLt
  have h2 := (S1.rowMajor i).isLt
  have e0 : S_.numel = 1 := by decide
  have e1 : S1.numel = 1 := by decide
  omega

section Rows

variable (x0 : (⟨S65536x1000, .f32⟩ : BufTy).Contents (Elt Ideal)) (x1 : (⟨S65536, .i32⟩ : BufTy).Contents (Elt Ideal))
  (x2 : (⟨S1000, .f32⟩ : BufTy).Contents (Elt Ideal))

/-! ### The softmax, row by row -/

/-- The softmax's shift at row `n` is the row's maximum: the extra maximum with negative infinity changes nothing. -/
theorem v6_at (n : Fin 65536) : val_main_v6 (F := Ideal) x0 (ix1 n) = Cert.Spec.rowMax (Cert.Spec.xrow x0 n) := by
  rw [val_main_v6_apply, val_main_v5_apply, val_main_cst_2_apply]
  have h4 : val_main_v4 (F := Ideal) x0 (ix1 n) = Cert.Spec.rowMax (Cert.Spec.xrow x0 n) := reduce_max_row x0 _ _ n
  rw [h4]
  show max (Ideal.ofBits .f32 0xFF800000#32) _ = _
  rw [ofBits_neg_inf]
  exact max_bot_left _

theorem v9_at (n : Fin 65536) (k : Fin 1000) :
    val_main_v9 (F := Ideal) x0 (ix2 n k) = Cert.Spec.xrow x0 n k - Cert.Spec.rowMax (Cert.Spec.xrow x0 n) := by
  rw [val_main_v9_apply, val_main_v8_apply, val_main_v7_apply]
  have e : idx_main_v7 (idx_main_v8 (ix2 n k)) = ix1 n := funext fun a => match a with | ⟨0, _⟩ => rfl
  rw [e, v6_at]
  rfl

theorem v10_at (n : Fin 65536) (k : Fin 1000) :
    val_main_v10 (F := Ideal) x0 (ix2 n k) = Ideal.exp (Cert.Spec.xrow x0 n k - Cert.Spec.rowMax (Cert.Spec.xrow x0 n)) := by
  rw [val_main_v10_apply, v9_at]
  rfl

/-- The softmax's denominator at row `n`. -/
theorem v11_at (n : Fin 65536) : val_main_v11 (F := Ideal) x0 (ix1 n) = Cert.Spec.rowSumExp (Cert.Spec.xrow x0 n) := by
  rw [val_main_v11_apply, val_main_cst_3_apply]
  show Ideal.ofBits .f32 0x00000000#32 + _ = _
  rw [Ideal.ofBits_zero_f32, zero_add]
  unfold Cert.Spec.rowSumExp
  refine Finset.sum_congr rfl fun k _ => ?_
  have e : idx_main_v11 (ix1 n) k = ix2 n k := funext fun a => match a with | ⟨0, _⟩ => rfl | ⟨1, _⟩ => rfl
  rw [e, v10_at]

/-- A softmax entry. -/
theorem v14_at (n : Fin 65536) (k : Fin 1000) :
    val_main_v14 (F := Ideal) x0 (ix2 n k) = Cert.Spec.pR (Cert.Spec.xrow x0 n) (Cert.Spec.xrow x0 n k) := by
  rw [val_main_v14_apply, val_main_v13_apply, val_main_v12_apply]
  have e : idx_main_v12 (idx_main_v13 (ix2 n k)) = ix1 n := funext fun a => match a with | ⟨0, _⟩ => rfl
  rw [e, v11_at, v10_at]
  rfl

end Rows

section Labels

variable (x0 : (⟨S65536x1000, .f32⟩ : BufTy).Contents (Elt Ideal)) (x1 : (⟨S65536, .i32⟩ : BufTy).Contents (Elt Ideal))
  (x2 : (⟨S1000, .f32⟩ : BufTy).Contents (Elt Ideal))

/-! ### Labels and start indices -/

/-- The clip at row `n` is the clipped label. -/
theorem v2_at (n : Fin 65536) : val_main_v2 (F := Ideal) x1 (ix1 n) = Cert.Spec.safeLab (x1 (ix1 n)) := by
  rw [val_main_v2_apply, val_main_call0_v4_apply, val_main_call0_v3_apply, val_main_c_1_apply, val_main_call0_v2_apply,
    val_main_call0_v1_apply, val_main_call0_v0_apply, val_main_c_0_apply]
  rfl

/-- The row number is not negative, so the wrap-around select keeps it. -/
theorem v19_at (n : Fin 65536) : val_main_v19 (F := Ideal) (ix1 n) = BitVec.ofNat 32 n.val := by
  rw [val_main_v19_apply, val_main_v16_apply, val_main_v15_apply, val_main_c_4_apply, val_main_v3_apply]
  exact select_slt_zero _ _ (ofNat_row_nonneg n)

/-- The clipped label is not negative, so the wrap-around select keeps it. -/
theorem v24_at (n : Fin 65536) : val_main_v24 (F := Ideal) x1 (ix1 n) = Cert.Spec.safeLab (x1 (ix1 n)) := by
  rw [val_main_v24_apply, val_main_v21_apply, val_main_v20_apply, val_main_c_6_apply, v2_at]
  exact select_slt_zero _ _ (Cert.Spec.safeLab_bounds _).1

theorem v27_at0 (n : Fin 65536) : val_main_v27 (F := Ideal) x1 (ix2 n (0 : Fin 2)) = BitVec.ofNat 32 n.val := by
  unfold val_main_v27
  rw [concat_col0, val_main_v25_apply]
  have e : idx_main_v25 (ix2 n (0 : Fin 1)) = ix1 n := funext fun a => match a with | ⟨0, _⟩ => rfl
  rw [e, v19_at]

theorem v27_at1 (n : Fin 65536) : val_main_v27 (F := Ideal) x1 (ix2 n (1 : Fin 2)) = Cert.Spec.safeLab (x1 (ix1 n)) := by
  unfold val_main_v27
  rw [concat_col1, val_main_v26_apply]
  have e : idx_main_v26 (ix2 n (0 : Fin 1)) = ix1 n := funext fun a => match a with | ⟨0, _⟩ => rfl
  rw [e, v24_at]

/-- The label's probability at row `n`: the softmax entry at (row, clipped label). -/
theorem v28_at (n : Fin 65536) :
    val_main_v28 (F := Ideal) x0 x1 (ix1 n)
      = Cert.Spec.pR (Cert.Spec.xrow x0 n) (Cert.Spec.xrow x0 n (Cert.Spec.labIdx (Cert.Spec.labAt x1 n))) := by
  unfold val_main_v28
  rw [pick_row _ _ n (x1 (ix1 n)) (v27_at0 x1 n) (v27_at1 x1 n), v14_at]
  rfl

theorem v39_at (n : Fin 65536) : val_main_v39 (F := Ideal) x1 (ix1 n) = Cert.Spec.safeLab (x1 (ix1 n)) := by
  rw [val_main_v39_apply, val_main_v36_apply, val_main_v35_apply, val_main_c_10_apply, v2_at]
  exact select_slt_zero _ _ (Cert.Spec.safeLab_bounds _).1

/-- The prior at row `n`'s clipped label. -/
theorem v41_at (n : Fin 65536) : val_main_v41 (F := Ideal) x1 x2 (ix1 n) = Cert.Spec.priAt x1 x2 n := by
  unfold val_main_v41
  have h0 : val_main_v40 (F := Ideal) x1 (ix2 n (0 : Fin 1)) = Cert.Spec.safeLab (x1 (ix1 n)) := by
    rw [val_main_v40_apply]
    have e : idx_main_v40 (ix2 n (0 : Fin 1)) = ix1 n := funext fun a => match a with | ⟨0, _⟩ => rfl
    rw [e, v39_at]
  rw [take_row x2 _ n (x1 (ix1 n)) h0]
  rfl

/-- The unlabeled term before the select: minus the logarithm of one minus the probability plus the constant. -/
theorem v34_at (n : Fin 65536) :
    val_main_v34 (F := Ideal) x0 x1 (ix1 n)
      = Cert.Spec.puR (Cert.Spec.xrow x0 n) (Cert.Spec.xrow x0 n (Cert.Spec.labIdx (Cert.Spec.labAt x1 n))) := by
  rw [val_main_v34_apply, val_main_v33_apply, val_main_v32_apply, val_main_v30_apply, val_main_v29_apply, val_main_cst_8_apply,
    val_main_v31_apply, val_main_cst_9_apply, v28_at]
  show -(Ideal.log ((Ideal.ofBits .f32 0x3F800000#32 - _) + Ideal.ofBits .f32 0x3C23D70A#32)) = _
  rw [Ideal.ofBits_one_f32]
  rfl

/-- The positive test at row `n`. -/
theorem v1_at (n : Fin 65536) : val_main_v1 (F := Ideal) x1 (ix1 n) = Cert.Spec.posBit (Cert.Spec.labAt x1 n) := by
  rw [val_main_v1_apply, val_main_v0_apply, val_main_c_apply]
  rfl

/-- Row `n`'s term of the objective's sum. -/
theorem v43_at (n : Fin 65536) :
    val_main_v43 (F := Ideal) x0 x1 x2 (ix1 n)
      = Cert.Spec.termPuR (Cert.Spec.xrow x0 n) (Cert.Spec.labAt x1 n) (Cert.Spec.priAt x1 x2 n) := by
  rw [val_main_v43_apply, v1_at, val_main_v42_apply, v34_at, v41_at, val_main_call1_v1_apply, val_main_call1_v0_apply,
    val_main_cst_12_apply]
  show (if _ = 1 then _ * _ else Ideal.ofBits .f32 0x00000000#32) = _
  rw [Ideal.ofBits_zero_f32]
  rfl

end Labels

section LogSoftmax

variable (x0 : (⟨S65536x1000, .f32⟩ : BufTy).Contents (Elt Ideal)) (x1 : (⟨S65536, .i32⟩ : BufTy).Contents (Elt Ideal))
  (x2 : (⟨S1000, .f32⟩ : BufTy).Contents (Elt Ideal))

/-! ### The log-softmax, row by row -/

theorem c2v2_at (n : Fin 65536) : val_main_call2_v2 (F := Ideal) x0 (ix1 n) = Cert.Spec.rowMax (Cert.Spec.xrow x0 n) := by
  rw [val_main_call2_v2_apply, val_main_call2_v1_apply, val_main_call2_cst_0_apply]
  have h0 : val_main_call2_v0 (F := Ideal) x0 (ix1 n) = Cert.Spec.rowMax (Cert.Spec.xrow x0 n) := reduce_max_row x0 _ _ n
  rw [h0]
  show max (Ideal.ofBits .f32 0xFF800000#32) _ = _
  rw [ofBits_neg_inf]
  exact max_bot_left _

theorem c2v5_at (n : Fin 65536) (k : Fin 1000) :
    val_main_call2_v5 (F := Ideal) x0 (ix2 n k) = Cert.Spec.xrow x0 n k - Cert.Spec.rowMax (Cert.Spec.xrow x0 n) := by
  rw [val_main_call2_v5_apply, val_main_call2_v4_apply, val_main_call2_v3_apply]
  have e : idx_main_call2_v3 (idx_main_call2_v4 (ix2 n k)) = ix1 n := funext fun a => match a with | ⟨0, _⟩ => rfl
  rw [e, c2v2_at]
  rfl

theorem c2v7_at (n : Fin 65536) : val_main_call2_v7 (F := Ideal) x0 (ix1 n) = Cert.Spec.rowSumExp (Cert.Spec.xrow x0 n) := by
  rw [val_main_call2_v7_apply, val_main_call2_cst_1_apply]
  show Ideal.ofBits .f32 0x00000000#32 + _ = _
  rw [Ideal.ofBits_zero_f32, zero_add]
  unfold Cert.Spec.rowSumExp
  refine Finset.sum_congr rfl fun k _ => ?_
  have e : idx_main_call2_v7 (ix1 n) k = ix2 n k := funext fun a => match a with | ⟨0, _⟩ => rfl | ⟨1, _⟩ => rfl
  rw [e, val_main_call2_v6_apply, c2v5_at]
  rfl

/-- A log-softmax entry. -/
theorem v53_at (n : Fin 65536) (k : Fin 1000) :
    val_main_v53 (F := Ideal) x0 (ix2 n k)
      = (Cert.Spec.xrow x0 n k - Cert.Spec.rowMax (Cert.Spec.xrow x0 n)) - Ideal.log (Cert.Spec.rowSumExp (Cert.Spec.xrow x0 n)) := by
  rw [val_main_v53_apply, c2v5_at, val_main_call2_v10_apply, val_main_call2_v9_apply, val_main_call2_v8_apply]
  have e : idx_main_call2_v8 (idx_main_call2_v10 (ix2 n k)) = ix1 n := funext fun a => match a with | ⟨0, _⟩ => rfl
  rw [e, c2v7_at]
  rfl

theorem v58_at (n : Fin 65536) : val_main_v58 (F := Ideal) (ix1 n) = BitVec.ofNat 32 n.val := by
  rw [val_main_v58_apply, val_main_v55_apply, val_main_v54_apply, val_main_c_17_apply, val_main_v3_apply]
  exact select_slt_zero _ _ (ofNat_row_nonneg n)

theorem v63_at (n : Fin 65536) : val_main_v63 (F := Ideal) x1 (ix1 n) = Cert.Spec.safeLab (x1 (ix1 n)) := by
  rw [val_main_v63_apply, val_main_v60_apply, val_main_v59_apply, val_main_c_19_apply, v2_at]
  exact select_slt_zero _ _ (Cert.Spec.safeLab_bounds _).1

theorem v66_at0 (n : Fin 65536) : val_main_v66 (F := Ideal) x1 (ix2 n (0 : Fin 2)) = BitVec.ofNat 32 n.val := by
  unfold val_main_v66
  rw [concat_col0, val_main_v64_apply]
  have e : idx_main_v64 (ix2 n (0 : Fin 1)) = ix1 n := funext fun a => match a with | ⟨0, _⟩ => rfl
  rw [e, v58_at]

theorem v66_at1 (n : Fin 65536) : val_main_v66 (F := Ideal) x1 (ix2 n (1 : Fin 2)) = Cert.Spec.safeLab (x1 (ix1 n)) := by
  unfold val_main_v66
  rw [concat_col1, val_main_v65_apply]
  have e : idx_main_v65 (ix2 n (0 : Fin 1)) = ix1 n := funext fun a => match a with | ⟨0, _⟩ => rfl
  rw [e, v63_at]

/-- Row `n`'s cross entropy: the log-softmax entry at (row, clipped label), negated. -/
theorem v68_at (n : Fin 65536) :
    val_main_v68 (F := Ideal) x0 x1 (ix1 n)
      = Cert.Spec.ceR (Cert.Spec.xrow x0 n) (Cert.Spec.xrow x0 n (Cert.Spec.labIdx (Cert.Spec.labAt x1 n))) := by
  rw [val_main_v68_apply]
  unfold val_main_v67
  rw [pick_row _ _ n (x1 (ix1 n)) (v66_at0 x1 n) (v66_at1 x1 n), v53_at]
  rfl

/-- Row `n`'s term of the cross entropy's sum. -/
theorem v69_at (n : Fin 65536) :
    val_main_v69 (F := Ideal) x0 x1 (ix1 n) = Cert.Spec.termCeR (Cert.Spec.xrow x0 n) (Cert.Spec.labAt x1 n) := by
  rw [val_main_v69_apply, v1_at, v68_at, val_main_call3_v1_apply, val_main_call3_v0_apply, val_main_cst_21_apply]
  show (if _ = 1 then _ else Ideal.ofBits .f32 0x00000000#32) = _
  rw [Ideal.ofBits_zero_f32]
  rfl

/-! ### The count and the two results -/

/-- The integer sum of the positive tests' 0/1 words is the specification's count. -/
theorem v46_at (i : S_.Idx) : val_main_v46 (F := Ideal) x1 i = Cert.Spec.cnt x1 := by
  unfold val_main_v46 val_main_v45 val_main_c_14
  rw [reduce_count]
  unfold Cert.Spec.cnt
  refine congrArg (fun f => Finset.fold IntOp.addi 0#32 f (Finset.univ : Finset (Fin 65536))) (funext fun n => ?_)
  show (val_main_v1 (F := Ideal) x1 (ix1 n)).setWidth 32 = _
  rw [v1_at]

theorem v44_at (i : S_.Idx) : val_main_v44 (F := Ideal) x0 x1 x2 i = Cert.Spec.sumPuR x0 x1 x2 := by
  rw [val_main_v44_apply, val_main_cst_13_apply]
  show Ideal.ofBits .f32 0x00000000#32 + _ = _
  rw [Ideal.ofBits_zero_f32, zero_add, sum_idx1]
  unfold Cert.Spec.sumPuR
  exact Finset.sum_congr rfl fun n _ => v43_at x0 x1 x2 n

theorem v70_at (i : S_.Idx) : val_main_v70 (F := Ideal) x0 x1 i = Cert.Spec.sumCeR x0 x1 := by
  rw [val_main_v70_apply, val_main_cst_22_apply]
  show Ideal.ofBits .f32 0x00000000#32 + _ = _
  rw [Ideal.ofBits_zero_f32, zero_add, sum_idx1]
  unfold Cert.Spec.sumCeR
  exact Finset.sum_congr rfl fun n _ => v69_at x0 x1 n

end LogSoftmax

theorem objective_eq (x0 : (⟨S65536x1000, .f32⟩ : BufTy).Contents (Elt Ideal)) (x1 : (⟨S65536, .i32⟩ : BufTy).Contents (Elt Ideal))
    (x2 : (⟨S1000, .f32⟩ : BufTy).Contents (Elt Ideal)) :
    val_main_v52 (F := Ideal) x0 x1 x2 = fun _ => Cert.Spec.objR x0 x1 x2 := by
  funext i
  unfold val_main_v52
  rw [shapeCast_scalar, val_main_v51_apply, val_main_v50_apply, val_main_v49_apply, v44_at, val_main_v48_apply,
    val_main_v47_apply, val_main_c_15_apply, v46_at, val_main_cst_16_apply]
  show (-(Ideal.div _ _)) * Ideal.ofBits .f32 0x3F800000#32 = _
  rw [Ideal.ofBits_one_f32]
  rfl

theorem cross_eq (x0 : (⟨S65536x1000, .f32⟩ : BufTy).Contents (Elt Ideal)) (x1 : (⟨S65536, .i32⟩ : BufTy).Contents (Elt Ideal)) :
    val_main_v72 (F := Ideal) x0 x1 = fun _ => Cert.Spec.crossR x0 x1 := by
  funext i
  rw [val_main_v72_apply, v70_at, val_main_v71_apply, v46_at]
  rfl

end Cert.ReferenceIdeal.RefValue

end
-- ==== Proof.SpecLaws.lean ====
/-
  The two forms of the loss agree on finite logits.
-/
import proofs.«409709_j23218593202209_2_alg».proof.Proof.Spec
import Idealize.ShloMosaic.Lib.StableHlo.Predicate
import Mathlib.Analysis.SpecialFunctions.Log.Basic

noncomputable section

namespace Cert.Spec

open Idealize.ShloMosaic Idealize.ShloMosaic.ValueIdx

variable (x : (⟨2, ![65536, 1000]⟩ : Shape).Idx → EReal) (lab : (⟨1, ![65536]⟩ : Shape).Idx → BitVec 32)
  (pri : (⟨1, ![1000]⟩ : Shape).Idx → EReal)

/-! ### Real numbers inside the extended reals -/

/-- A finite sum of real numbers, taken in the extended reals, is the real sum. -/
theorem coe_sum_real {ι : Type} [DecidableEq ι] (S : Finset ι) (f : ι → ℝ) :
    ∑ k ∈ S, ((f k : ℝ) : EReal) = ((∑ k ∈ S, f k : ℝ) : EReal) := by
  induction S using Finset.induction_on with
  | empty => rw [Finset.sum_empty, Finset.sum_empty, EReal.coe_zero]
  | insert a S ha ih => rw [Finset.sum_insert ha, Finset.sum_insert ha, ih, EReal.coe_add]

/-- The maximum of two real numbers, taken in the extended reals, is the real maximum. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A fold of `max` from `-∞` over real numbers is `-∞` or one real number. -/
theorem fold_max_real {ι : Type} [DecidableEq ι] (S : Finset ι) (f : ι → ℝ) :
    S.fold max (⊥ : EReal) (fun k => ((f k : ℝ) : EReal)) = ⊥ ∨
      ∃ m : ℝ, S.fold max (⊥ : EReal) (fun k => ((f k : ℝ) : EReal)) = (m : EReal) := by
  induction S using Finset.induction_on with
  | empty => exact Or.inl (Finset.fold_empty)
  | insert a S ha ih =>
    rw [Finset.fold_insert ha]
    rcases ih with h | ⟨m, h⟩
    · rw [h]; exact Or.inr ⟨f a, max_bot_right _⟩
    · rw [h]; exact Or.inr ⟨max (f a) m, coe_max_real _ _⟩

/-! ### One row of finite logits -/

/-- Every entry of the row is a real number. -/
def RowFinite (v : Row) : Prop := ∀ k, ∃ r : ℝ, v k = (r : EReal)

/-- On a row of real numbers the maximum is a real number and the softmax denominator is a positive real number. -/
theorem row_real (v : Row) (hv : RowFinite v) :
    ∃ m s : ℝ, rowMax v = (m : EReal) ∧ rowSumExp v = (s : EReal) ∧ 0 < s := by
  choose r hr using hv
  obtain rfl : v = fun k => ((r k : ℝ) : EReal) := funext hr
  have hm : ∃ m : ℝ, rowMax (fun k => ((r k : ℝ) : EReal)) = (m : EReal) := by
    unfold rowMax
    rcases fold_max_real (Finset.univ : Finset (Fin 1000)) r with h | h
    · exfalso
      have h0 : ((r 0 : ℝ) : EReal) ≤ (Finset.univ : Finset (Fin 1000)).fold max (⊥ : EReal) (fun k => ((r k : ℝ) : EReal)) :=
        (Finset.le_fold_max _).mpr (Or.inr ⟨0, Finset.mem_univ _, le_refl _⟩)
      rw [h] at h0
      exact EReal.coe_ne_bot _ (le_bot_iff.mp h0)
    · exact h
  obtain ⟨m, hm⟩ := hm
  refine ⟨m, ∑ k : Fin 1000, Real.exp (r k - m), hm, ?_, ?_⟩
  · unfold rowSumExp
    rw [hm, ← coe_sum_real]
    refine Finset.sum_congr rfl (fun k _ => ?_)
    rw [← EReal.coe_sub, Ideal.exp_coe]
  · exact Finset.sum_pos (fun k _ => Real.exp_pos _) ⟨0, Finset.mem_univ _⟩

/-- The logarithm of a positive real number. -/
theorem log_coe_pos {s : ℝ} (hs : 0 < s) : Ideal.log (s : EReal) = ((Real.log s : ℝ) : EReal) := by
  rw [Ideal.log_coe, if_neg (not_le.mpr hs)]

/-- `exp (u - log s) = exp u / s` for a positive real `s`. -/
theorem p_core (a m s : ℝ) (hs : 0 < s) :
    Ideal.exp (((a : EReal) - (m : EReal)) - Ideal.log (s : EReal)) =
      Ideal.div (Ideal.exp ((a : EReal) - (m : EReal))) (s : EReal) := by
  rw [log_coe_pos hs, ← EReal.coe_sub, ← EReal.coe_sub, Ideal.exp_coe, Ideal.exp_coe,
    Ideal.div_coe (ne_of_gt hs), ← EReal.coe_mul, Real.exp_sub, Real.exp_log hs, div_eq_mul_one_div]

/-- `(m + log s) - a = -((a - m) - log s)` for real numbers. -/
theorem ce_core (a m s : ℝ) (hs : 0 < s) :
    ((m : EReal) + Ideal.log (s : EReal)) - (a : EReal) = -(((a : EReal) - (m : EReal)) - Ideal.log (s : EReal)) := by
  rw [log_coe_pos hs, ← EReal.coe_add, ← EReal.coe_sub, ← EReal.coe_sub, ← EReal.coe_sub, ← EReal.coe_neg]
  congr 1
  ring

theorem pK_eq_pR (v : Row) (hv : RowFinite v) (a : EReal) (ha : ∃ r : ℝ, a = (r : EReal)) : pK v a = pR v a := by
  obtain ⟨m, s, hm, hs, hpos⟩ := row_real v hv
  obtain ⟨ra, rfl⟩ := ha
  unfold pK pR
  rw [hm, hs]
  exact p_core ra m s hpos

theorem puK_eq_puR (v : Row) (hv : RowFinite v) (a : EReal) (ha : ∃ r : ℝ, a = (r : EReal)) : puK v a = puR v a := by
  unfold puK puR
  rw [pK_eq_pR v hv a ha, zero_sub]

theorem ceK_eq_ceR (v : Row) (hv : RowFinite v) (a : EReal) (ha : ∃ r : ℝ, a = (r : EReal)) : ceK v a = ceR v a := by
  obtain ⟨m, s, hm, hs, hpos⟩ := row_real v hv
  obtain ⟨ra, rfl⟩ := ha
  unfold ceK ceR
  rw [hm, hs]
  exact ce_core ra m s hpos

/-! ### The positive-row test as a number -/

/-- The test's number is 1 on a positive row. -/
theorem posf_of_pos (l : BitVec 32) (h : posBit l = 1#1) : posf l = 1 := by
  unfold posf
  rw [h, show (1#1 : BitVec 1).toNat = 1 from rfl, Nat.cast_one, EReal.coe_one]

/-- The test's number is 0 on any other row. -/
theorem posf_of_not_pos (l : BitVec 32) (h : posBit l = 0#1) : posf l = 0 := by
  unfold posf
  rw [h, show (0#1 : BitVec 1).toNat = 0 from rfl, Nat.cast_zero, EReal.coe_zero]

theorem one_bit_ne : (0#1 : BitVec 1) ≠ 1#1 := by decide

/-- Multiplying by the 0/1 number is selecting on the test (the probability term). -/
theorem termPuK_eq_termPuR (v : Row) (hv : RowFinite v) (l : BitVec 32) (p : EReal) :
    termPuK v l p = termPuR v l p := by
  unfold termPuK termPuR
  rcases BitVec.eq_zero_or_eq_one (posBit l) with h | h
  · rw [posf_of_not_pos l h, h, if_neg one_bit_ne, zero_mul, mul_zero]
  · rw [posf_of_pos l h, if_pos h, one_mul, puK_eq_puR v hv _ (hv _)]

/-- Multiplying by the 0/1 number is selecting on the test (the cross-entropy term). -/
theorem termCeK_eq_termCeR (v : Row) (hv : RowFinite v) (l : BitVec 32) :
    termCeK v l = termCeR v l := by
  unfold termCeK termCeR
  rcases BitVec.eq_zero_or_eq_one (posBit l) with h | h
  · rw [posf_of_not_pos l h, h, if_neg one_bit_ne, mul_zero]
  · rw [posf_of_pos l h, if_pos h, mul_one, ceK_eq_ceR v hv _ (hv _)]

/-! ### The count of positive rows -/

/-- A widened bit has the bit's value. -/
theorem toNat_setWidth_one (b : BitVec 1) : (b.setWidth 32).toNat = b.toNat := by
  rcases BitVec.eq_zero_or_eq_one b with rfl | rfl <;> rfl

/-- A bit's value is at most 1. -/
theorem toNat_bit_le (b : BitVec 1) : b.toNat ≤ 1 := by
  rcases BitVec.eq_zero_or_eq_one b with rfl | rfl <;> decide

/-- The number of positive rows. -/
def nPos : ℕ := ∑ n : Fin 65536, (posBit (labAt lab n)).toNat

theorem nPos_le : nPos lab ≤ 65536 := by
  unfold nPos
  calc ∑ n : Fin 65536, (posBit (labAt lab n)).toNat
      ≤ ∑ _n : Fin 65536, 1 := Finset.sum_le_sum (fun n _ => toNat_bit_le _)
    _ = 65536 := by rw [Finset.sum_const, Finset.card_univ, Fintype.card_fin, smul_eq_mul, mul_one]

/-- Adding the 0/1 words as 32-bit words never wraps: the word count is the number of positive rows. -/
theorem cnt_toNat : (cnt lab).toNat = nPos lab := by
  have hsum : ∑ n : Fin 65536, ((posBit (labAt lab n)).setWidth 32).toNat = nPos lab :=
    Finset.sum_congr rfl (fun n _ => toNat_setWidth_one _)
  unfold cnt
  rw [StableHlo.Predicate.toNat_fold_addi _ _ (by rw [hsum]; have := nPos_le lab; omega), hsum]

theorem cnt_toInt : (cnt lab).toInt = (nPos lab : ℤ) := by
  rw [StableHlo.Predicate.toInt_eq_toNat_of_lt (by rw [cnt_toNat]; have := nPos_le lab; omega), cnt_toNat]

/-- Adding the 0/1 values as numbers gives the same count. -/
theorem sumPos_eq_cnt : sumPos lab = (((cnt lab).toInt : ℝ) : EReal) := by
  unfold sumPos posf
  rw [coe_sum_real, cnt_toInt, Int.cast_natCast]
  unfold nPos
  rw [Nat.cast_sum]

/-- The signed maximum with 1, read as a number. -/
theorem maxsi_one_toInt (c : BitVec 32) : (IntOp.maxsi 1#32 c).toInt = max 1 c.toInt := by
  have h1 : (1#32 : BitVec 32).toInt = 1 := by decide
  unfold IntOp.maxsi
  by_cases h : c.slt 1#32 = true
  · rw [if_pos h, h1]
    simp only [BitVec.slt, h1, decide_eq_true_eq] at h
    rw [max_eq_left (by omega)]
  · rw [if_neg h]
    simp only [BitVec.slt, h1, decide_eq_true_eq, not_lt] at h
    rw [max_eq_right h]

theorem max_one_sumPos : max 1 (sumPos lab) = ((((IntOp.maxsi 1#32 (cnt lab)).toInt : ℝ)) : EReal) := by
  rw [sumPos_eq_cnt, maxsi_one_toInt, ← EReal.coe_one, coe_max_real, Int.cast_max, Int.cast_one]

/-! ### The sums and the two results -/

theorem xrow_finite (hfin : ∀ i, ∃ r : ℝ, x i = (r : EReal)) (n : Fin 65536) : RowFinite (xrow x n) :=
  fun k => hfin (ix2 n k)

theorem sumPuK_eq_sumPuR (hfin : ∀ i, ∃ r : ℝ, x i = (r : EReal)) : sumPuK x lab pri = sumPuR x lab pri :=
  Finset.sum_congr rfl (fun n _ => termPuK_eq_termPuR _ (xrow_finite x hfin n) _ _)

theorem sumCeK_eq_sumCeR (hfin : ∀ i, ∃ r : ℝ, x i = (r : EReal)) : sumCeK x lab = sumCeR x lab :=
  Finset.sum_congr rfl (fun n _ => termCeK_eq_termCeR _ (xrow_finite x hfin n) _)

theorem objK_eq_objR (hfin : ∀ i, ∃ r : ℝ, x i = (r : EReal)) : objK x lab pri = objR x lab pri := by
  unfold objK objR
  rw [sumPuK_eq_sumPuR x lab pri hfin, max_one_sumPos]

theorem crossK_eq_crossR (hfin : ∀ i, ∃ r : ℝ, x i = (r : EReal)) : crossK x lab = crossR x lab := by
  unfold crossK crossR
  rw [sumCeK_eq_sumCeR x lab hfin, sumPos_eq_cnt]

end Cert.Spec

end
-- ==== Proof.Finite.lean ====
/-
  The precondition, read: every logit is a real number.

  The precondition is the conjunction of two `all`s; the first says of every logit `a` that `|a| < +∞`, with
  `|a| = max a (-a)`.  An extended real with `max a (-a) < ⊤` is neither `⊤` nor `⊥`, so it is a real number.
-/
import proofs.«409709_j23218593202209_2_alg».proof.Pre_finite_inputs
import proofs.«409709_j23218593202209_2_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

/-- The pattern of `+∞` denotes `⊤`. -/
theorem ofBits_inf : Ideal.ofBits .f32 0x7F800000#32 = ⊤ := by
  simp [Ideal.ofBits, Ideal.ieee]

/-- An extended real whose absolute value is below `⊤` is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

instance : Subsingleton S_.Idx := ⟨fun a b => funext fun d => d.elim0⟩

/-- Under the precondition every logit is a real number. -/
theorem logits_real (x : FVec Ideal S65536x1000 .f32) (l : IVec S65536 32) (p : FVec Ideal S1000 .f32) (q : IVec S100 32)
    (h : Cert.Pre_finite_inputs.fn (F := Ideal) x l p q = fun _ => 1#1) (i : S65536x1000.Idx) :
    ∃ r : ℝ, x i = (r : EReal) := by
  have h0 := congrFun h ix0
  dsimp only [Cert.Pre_finite_inputs.fn] at h0
  have h1 := (IntOp.andi_eq_one.1 h0).1
  have h2 := Host.reduce_andi_all _ _ _ _ _ h1 i
  apply real_of_abs_lt_top
  have h3 : Ideal.cmp .olt (max (x i) (-(x i))) (Ideal.ofBits .f32 0x7F800000#32) = 1#1 := h2
  rw [ofBits_inf] at h3
  by_contra hn
  have h4 : Ideal.cmp .olt (max (x i) (-(x i))) ⊤ = 0#1 := by
    show BitVec.ofBool (decide (max (x i) (-(x i)) < ⊤)) = 0#1
    rw [decide_eq_false hn]; rfl
  rw [h4] at h3
  exact absurd h3 (by decide)

end Cert.Finite

end
-- ==== Proof.lean ====
/-
  The certificate: the PU-learning loss kernel against its jnp reference, over the extended reals.

  The kernel streams the 65536 × 1000 logits in 64 row blocks, 32 per core.  For each row it takes the maximum `M` and
  the softmax denominator `S`, picks the logit `a` at the row's clipped label by a one-hot sum, and adds three per-row
  terms into three accumulators: `-log (1 - exp (a - M - log S) + 0.01)` weighted by the positive flag times the
  prior at the label, the cross entropy `M + log S - a` times the flag, and the flag.  Each core hands its three
  totals out after its last block, and the host adds the two cores' totals and forms `-(pu / max 1 npos)` and
  `ce / npos`.  The reference computes the same three sums over all rows at once, from a softmax and a log-softmax,
  selecting on the positive test and counting the positive rows in integers.

  The frames of the two kernel programs are the generated ones; the reference's frame is its generated run (a copy of the generated module with its recursion limit raised: the generated one stops at that limit).  The
  ideal pass rewrote nothing.  For the algebraic claim the kernel's run is read through the accumulators point by point
  and through the host tail, the reference's run one operation at a time, and the two forms of the loss agree when the
  logits are finite, which the precondition says.
-/
import proofs.«409709_j23218593202209_2_alg».proof.Defs
import proofs.«409709_j23218593202209_2_alg».proof.Proof.Gen.Kernel
import proofs.«409709_j23218593202209_2_alg».proof.Proof.Gen.Kernel.Frame
import proofs.«409709_j23218593202209_2_alg».proof.Proof.Gen.KernelIdeal
import proofs.«409709_j23218593202209_2_alg».proof.Proof.Gen.KernelIdeal.Frame
import proofs.«409709_j23218593202209_2_alg».proof.Proof.Gen.ReferenceIdeal
import proofs.«409709_j23218593202209_2_alg».proof.Proof.RefRun
import proofs.«409709_j23218593202209_2_alg».proof.Proof.RefRead
import proofs.«409709_j23218593202209_2_alg».proof.Proof.Gen.Pre_finite_inputs
import proofs.«409709_j23218593202209_2_alg».proof.Proof.KValue
import proofs.«409709_j23218593202209_2_alg».proof.Proof.RefValue
import proofs.«409709_j23218593202209_2_alg».proof.Proof.SpecLaws
import proofs.«409709_j23218593202209_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2)
    (Cert.ReferenceIdeal.ValueP.run (F := Ideal) m ρ)

/-- Both programs end with the objective (returned twice) and the cross entropy of the argument arrays: the kernel's
    forms by its run, the reference's by its run read one operation at a time, and the two forms agree on finite
    logits. -/
theorem algebraic : Cert.algebraic_KernelIdeal_ReferenceIdeal := by
  intro m ρ m' ρ' hpre hagree
  refine ⟨fun c => fun _ => Cert.Spec.objK (Cert.KernelIdeal.KValue.argX m c) (Cert.KernelIdeal.KValue.argL m c) (Cert.KernelIdeal.KValue.argP m c),
    fun c => fun _ => Cert.Spec.objK (Cert.KernelIdeal.KValue.argX m c) (Cert.KernelIdeal.KValue.argL m c) (Cert.KernelIdeal.KValue.argP m c),
    fun c => fun _ => Cert.Spec.crossK (Cert.KernelIdeal.KValue.argX m c) (Cert.KernelIdeal.KValue.argL m c), ?_, ?_⟩
  · exact (θ_run Cert.KernelIdeal.defs _ _).mono (fun _ h c => ⟨(h c).1, (h c).1, (h c).2⟩)
      (Cert.KernelIdeal.KValue.run m ρ)
  · refine (θ_run Cert.ReferenceIdeal.defs _ _).mono (fun _ h c => ?_)
      (Cert.ReferenceIdeal.ValueP.run (F := Ideal) m' ρ')
    have hfin := Cert.Finite.logits_real _ _ _ _ (hpre c)
    have hobj : Cert.ReferenceIdeal.ValueP.res_main_v52 (F := Ideal) m' c
        = fun _ => Cert.Spec.objK (Cert.KernelIdeal.KValue.argX m c) (Cert.KernelIdeal.KValue.argL m c) (Cert.KernelIdeal.KValue.argP m c) := by
      rw [Cert.ReferenceIdeal.ReadP.val_main_v52_eq, Cert.ReferenceIdeal.RefValue.objective_eq,
        (hagree c).1, (hagree c).2.1, (hagree c).2.2.1]
      exact funext fun _ => (Cert.Spec.objK_eq_objR _ _ _ hfin).symm
    refine ⟨(h c).1.trans hobj, (h c).2.1.trans hobj, (h c).2.2.1.trans ?_, (h c).2.2.2⟩
    rw [Cert.ReferenceIdeal.ReadP.val_main_v72_eq, Cert.ReferenceIdeal.RefValue.cross_eq, (hagree c).1, (hagree c).2.1]
    exact funext fun _ => (Cert.Spec.crossK_eq_crossR _ _ hfin).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
